-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v35)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v35) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v36) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S131072x2 : Shape := ⟨2, ![131072, 2]⟩
abbrev S2x8388608 : Shape := ⟨2, ![2, 8388608]⟩
abbrev S131072 : Shape := ⟨1, ![131072]⟩
abbrev S_ : Shape := ⟨0, ![]⟩

class Facts : Prop where
  bcast_S_S131072x2 : S_.BroadcastsInDim S131072x2 (![] : Fin 0 → Fin S131072x2.rank)
  reducesTo_S131072x2_S_d0_1 : S131072x2.ReducesTo [0, 1] S_
  h_S_ : 0 < S_.numel

variable [Facts]

def fn {F : FTy → Type} [FloatOps F] (main_arg0 : FVec F S131072x2 .f32) (main_arg1 : IVec S2x8388608 32) (main_arg2 : IVec S131072 32) : IVec S_ 1 :=
  let main_v0 : FVec F S131072x2 .f32 := Host.absf main_arg0
  let main_cst : FVec F S_ .f32 := constant S_ .f32 0x7F800000#32
  let main_v1 : FVec F S131072x2 .f32 := broadcastInDim S131072x2 ![] bcast_S_S131072x2 main_cst
  let main_v2 : IVec S131072x2 1 := cmpf .olt main_v0 main_v1
  let main_c : IVec S_ 1 := constantI S_ 1 1#1
  let main_v3 : IVec S_ 1 := (fun x v => Host.reduce IntOp.andi x v reducesTo_S131072x2_S_d0_1 h_S_) main_v2 main_c
  main_v3
-- ==== Kernel.lean ====
abbrev S131072x2 : Shape := ⟨2, ![131072, 2]⟩
abbrev S2x8388608 : Shape := ⟨2, ![2, 8388608]⟩
abbrev S131072 : Shape := ⟨1, ![131072]⟩
abbrev S1x8388608 : Shape := ⟨2, ![1, 8388608]⟩
abbrev S8388608 : Shape := ⟨1, ![8388608]⟩
abbrev S_ : Shape := ⟨0, ![]⟩
abbrev S8388608x1 : Shape := ⟨2, ![8388608, 1]⟩
abbrev S8388608x2 : Shape := ⟨2, ![8388608, 2]⟩
abbrev S1024 : Shape := ⟨1, ![1024]⟩
abbrev S8192 : Shape := ⟨1, ![8192]⟩
abbrev S8192x1024 : Shape := ⟨2, ![8192, 1024]⟩
abbrev S8192x1 : Shape := ⟨2, ![8192, 1]⟩
abbrev S1x8192 : Shape := ⟨2, ![1, 8192]⟩
abbrev S1x1024 : Shape := ⟨2, ![1, 1024]⟩

abbrev nBuf : Space → Nat
  | .hbm => 47
  | .vmem => 12
  | .smem => 0
  | _ => 0

abbrev bufTy : (tb : Table) → Fin (tcTables nBuf tb) → BufTy
  | .hbm, ⟨0, _⟩ => ⟨S131072x2, .f32⟩
  | .hbm, ⟨1, _⟩ => ⟨S2x8388608, .i32⟩
  | .hbm, ⟨2, _⟩ => ⟨S131072, .i32⟩
  | .hbm, ⟨3, _⟩ => ⟨S1x8388608, .i32⟩
  | .hbm, ⟨4, _⟩ => ⟨S8388608, .i32⟩
  | .hbm, ⟨5, _⟩ => ⟨S1x8388608, .i32⟩
  | .hbm, ⟨6, _⟩ => ⟨S8388608, .i32⟩
  | .hbm, ⟨7, _⟩ => ⟨S_, .i32⟩
  | .hbm, ⟨8, _⟩ => ⟨S8388608, .i32⟩
  | .hbm, ⟨9, _⟩ => ⟨S8388608, .i1⟩
  | .hbm, ⟨10, _⟩ => ⟨S_, .i32⟩
  | .hbm, ⟨11, _⟩ => ⟨S8388608, .i32⟩
  | .hbm, ⟨12, _⟩ => ⟨S8388608, .i32⟩
  | .hbm, ⟨13, _⟩ => ⟨S8388608, .i32⟩
  | .hbm, ⟨14, _⟩ => ⟨S8388608x1, .i32⟩
  | .hbm, ⟨15, _⟩ => ⟨S8388608x2, .f32⟩
  | .hbm, ⟨16, _⟩ => ⟨S_, .i32⟩
  | .hbm, ⟨17, _⟩ => ⟨S8388608, .i32⟩
  | .hbm, ⟨18, _⟩ => ⟨S8388608, .i1⟩
  | .hbm, ⟨19, _⟩ => ⟨S_, .i32⟩
  | .hbm, ⟨20, _⟩ => ⟨S8388608, .i32⟩
  | .hbm, ⟨21, _⟩ => ⟨S8388608, .i32⟩
  | .hbm, ⟨22, _⟩ => ⟨S8388608, .i32⟩
  | .hbm, ⟨23, _⟩ => ⟨S8388608x1, .i32⟩
  | .hbm, ⟨24, _⟩ => ⟨S8388608x2, .f32⟩
  | .hbm, ⟨25, _⟩ => ⟨S8388608x1, .f32⟩
  | .hbm, ⟨26, _⟩ => ⟨S8388608, .f32⟩
  | .hbm, ⟨27, _⟩ => ⟨S8388608x1, .f32⟩
  | .hbm, ⟨28, _⟩ => ⟨S8388608, .f32⟩
  | .hbm, ⟨29, _⟩ => ⟨S8388608x1, .f32⟩
  | .hbm, ⟨30, _⟩ => ⟨S8388608, .f32⟩
  | .hbm, ⟨31, _⟩ => ⟨S8388608x1, .f32⟩
  | .hbm, ⟨32, _⟩ => ⟨S8388608, .f32⟩
  | .hbm, ⟨33, _⟩ => ⟨S_, .i32⟩
  | .hbm, ⟨34, _⟩ => ⟨S8388608, .i32⟩
  | .hbm, ⟨35, _⟩ => ⟨S8388608, .i1⟩
  | .hbm, ⟨36, _⟩ => ⟨S_, .i32⟩
  | .hbm, ⟨37, _⟩ => ⟨S8388608, .i32⟩
  | .hbm, ⟨38, _⟩ => ⟨S8388608, .i32⟩
  | .hbm, ⟨39, _⟩ => ⟨S8388608, .i32⟩
  | .hbm, ⟨40, _⟩ => ⟨S8388608x1, .i32⟩
  | .hbm, ⟨41, _⟩ => ⟨S8388608, .i32⟩
  | .hbm, ⟨42, _⟩ => ⟨S1024, .f32⟩
  | .hbm, ⟨43, _⟩ => ⟨S_, .f32⟩
  | .hbm, ⟨44, _⟩ => ⟨S_, .f32⟩
  | .hbm, ⟨45, _⟩ => ⟨S_, .f32⟩
  | .hbm, ⟨46, _⟩ => ⟨S_, .f32⟩
  | .local _ .vmem, ⟨0, _⟩ => ⟨S8192, .f32⟩
  | .local _ .vmem, ⟨1, _⟩ => ⟨S8192, .f32⟩
  | .local _ .vmem, ⟨2, _⟩ => ⟨S8192, .f32⟩
  | .local _ .vmem, ⟨3, _⟩ => ⟨S8192, .f32⟩
  | .local _ .vmem, ⟨4, _⟩ => ⟨S8192, .f32⟩
  | .local _ .vmem, ⟨5, _⟩ => ⟨S8192, .f32⟩
  | .local _ .vmem, ⟨6, _⟩ => ⟨S8192, .f32⟩
  | .local _ .vmem, ⟨7, _⟩ => ⟨S8192, .f32⟩
  | .local _ .vmem, ⟨8, _⟩ => ⟨S8192, .i32⟩
  | .local _ .vmem, ⟨9, _⟩ => ⟨S8192, .i32⟩
  | .local _ .vmem, ⟨10, _⟩ => ⟨S1024, .f32⟩
  | .local _ .vmem, ⟨11, _⟩ => ⟨S1024, .f32⟩
  | _, _ => ⟨S131072x2, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_c : Ref sig .tc := ⟨.hbm, 7, rfl⟩
abbrev main_v4 : Ref sig .tc := ⟨.hbm, 8, rfl⟩
abbrev main_v5 : Ref sig .tc := ⟨.hbm, 9, rfl⟩
abbrev main_c_0 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_c_1 : Ref sig .tc := ⟨.hbm, 16, rfl⟩
abbrev main_v11 : Ref sig .tc := ⟨.hbm, 17, rfl⟩
abbrev main_v12 : Ref sig .tc := ⟨.hbm, 18, rfl⟩
abbrev main_c_2 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_c_3 : Ref sig .tc := ⟨.hbm, 33, rfl⟩
abbrev main_v26 : Ref sig .tc := ⟨.hbm, 34, rfl⟩
abbrev main_v27 : Ref sig .tc := ⟨.hbm, 35, rfl⟩
abbrev main_c_4 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev main_cst : Ref sig .tc := ⟨.hbm, 43, rfl⟩
abbrev main_v34 : Ref sig .tc := ⟨.hbm, 44, rfl⟩
abbrev main_cst_5 : Ref sig .tc := ⟨.hbm, 45, rfl⟩
abbrev main_v35 : Ref sig .tc := ⟨.hbm, 46, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_scratch0 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10

abbrev nD : Nat := 1
abbrev τ : Topo := Topo.v7x

variable {F : FTy → Type} [FloatOps F]

abbrev grid0 : Pipeline.Grid := ⟨1, ![1024], ![false]⟩

def k0_cond2 (i : grid0.Coords) : BitVec 1 :=
  let arg0 : BitVec 32 := BitVec.ofNat 32 (i 0).val
  let c1023_i32 : BitVec 32 := 1023#32
  let v38 : BitVec 1 := Scalar.cmpi .eq arg0 c1023_i32
  let v39 : BitVec 32 := Scalar.extui v38
  let c0_i32_8 : BitVec 32 := 0#32
  let v40 : BitVec 1 := Scalar.cmpi .ne v39 c0_i32_8
  v40

def cc0_transform_0 (i : grid0.Coords) : Fin 1 → Nat :=
  let arg0 : BitVec 32 := BitVec.ofNat 32 (i 0).val
  let c0_i32 : BitVec 32 := 0#32
  ![arg0.toNat]

def cc0_transform_1 (i : grid0.Coords) : Fin 1 → Nat :=
  let arg0 : BitVec 32 := BitVec.ofNat 32 (i 0).val
  let c0_i32 : BitVec 32 := 0#32
  ![arg0.toNat]

def cc0_transform_2 (i : grid0.Coords) : Fin 1 → Nat :=
  let arg0 : BitVec 32 := BitVec.ofNat 32 (i 0).val
  let c0_i32 : BitVec 32 := 0#32
  ![arg0.toNat]

def cc0_transform_3 (i : grid0.Coords) : Fin 1 → Nat :=
  let arg0 : BitVec 32 := BitVec.ofNat 32 (i 0).val
  let c0_i32 : BitVec 32 := 0#32
  ![arg0.toNat]

def cc0_transform_4 (i : grid0.Coords) : Fin 1 → Nat :=
  let arg0 : BitVec 32 := BitVec.ofNat 32 (i 0).val
  let c0_i32 : BitVec 32 := 0#32
  ![arg0.toNat]

def cc0_transform_5 (i : grid0.Coords) : Fin 1 → Nat :=
  let arg0 : BitVec 32 := BitVec.ofNat 32 (i 0).val
  let c0_i32 : BitVec 32 := 0#32
  let c0_i32_0 : BitVec 32 := 0#32
  ![c0_i32.toNat]

abbrev stage0_0 : Fin 2 → Memref sig .tc .vmem S8192 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8192 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S8192 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S8192 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S8192 .i32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

class Facts₀ : Prop where
  slices_S2x8388608_S1x8388608_0_0 : S2x8388608.Slices ![0, 0] S1x8388608
  shapeCasts_S1x8388608_S8388608 : S1x8388608.ShapeCasts S8388608
  slices_S2x8388608_S1x8388608_1_0 : S2x8388608.Slices ![1, 0] S1x8388608
  bcast_S_S8388608 : S_.BroadcastsInDim S8388608 (![] : Fin 0 → Fin S8388608.rank)
  bcast_S8388608_S8388608x1_0 : S8388608.BroadcastsInDim S8388608x1 (![0] : Fin 1 → Fin S8388608x1.rank)
  slices_S8388608x2_S8388608x1_0_0 : S8388608x2.Slices ![0, 0] S8388608x1
  shapeCasts_S8388608x1_S8388608 : S8388608x1.ShapeCasts S8388608
  slices_S8388608x2_S8388608x1_0_1 : S8388608x2.Slices ![0, 1] S8388608x1
  inb_S1024_S1024_0 : ∀ a, (![0] : Fin 1 → Nat) a + S1024.size a ≤ S1024.size a
  h_S1024 : 0 < S1024.numel
  shapeCasts_S1024_S1024 : S1024.ShapeCasts S1024
  inb_S8192_S8192_0 : ∀ a, (![0] : Fin 1 → Nat) a + S8192.size a ≤ S8192.size a
  h_S8192 : 0 < S8192.numel
  shapeCasts_S8192_S8192 : S8192.ShapeCasts S8192
  iota_S8192x1024_d1_w32 : S8192x1024.Iotas .tc 32 [1]
  shapeCasts_S8192_S8192x1 : S8192.ShapeCasts S8192x1
  broadcasts_S8192x1_S8192x1024 : S8192x1.Broadcasts S8192x1024
  natLt_1_32 : 1 < 32
  bitsLt_bf16_f32 : FTy.bits .bf16 < FTy.bits .f32
  shapeCasts_S8192_S1x8192 : S8192.ShapeCasts S1x8192
  shapeCasts_S1x1024_S1024 : S1x1024.ShapeCasts S1024
  reducesTo_S1024_S_d0 : S1024.ReducesTo [0] S_
  h_S_ : 0 < S_.numel
  gather_S131072x2_S8388608x1_S8388608x2_1_0_n_n_0_1_12_wf : GatherDims.WF S131072x2 S8388608x1 S8388608x2 [1] [0] [] [0] [] 1 ![1, 2]
  gather_S131072_S8388608x1_S8388608_n_0_n_n_0_1_1_wf : GatherDims.WF S131072 S8388608x1 S8388608 [] [0] [] [0] [] 1 ![1]
  dot_S1x8192_S8192x1024_S1x1024_1_0_0_1_n_n_wf : DotDims.WF S1x8192 S8192x1024 S1x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S8192.size a ≤ S8388608.size a
  hwx0_0 : ∀ i : grid0.Coords, EltTy.bits .f32 = 32 ∨ (Rect.block (s := S8388608) S8192.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S8192.size a ≤ S8388608.size a
  hwx0_1 : ∀ i : grid0.Coords, EltTy.bits .f32 = 32 ∨ (Rect.block (s := S8388608) S8192.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S8192.size a ≤ S8388608.size a
  hwx0_2 : ∀ i : grid0.Coords, EltTy.bits .f32 = 32 ∨ (Rect.block (s := S8388608) S8192.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S8192.size a ≤ S8388608.size a
  hwx0_3 : ∀ i : grid0.Coords, EltTy.bits .f32 = 32 ∨ (Rect.block (s := S8388608) S8192.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S8192.size a ≤ S8388608.size a
  hwx0_4 : ∀ i : grid0.Coords, EltTy.bits .i32 = 32 ∨ (Rect.block (s := S8388608) S8192.size (cc0_transform_4 i) (hinb0_4 i)).WholeWords (EltTy.packing .i32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1024.size a ≤ S1024.size a
  hwx0_5 : ∀ i : grid0.Coords, EltTy.bits .f32 = 32 ∨ (Rect.block (s := S1024) S1024.size (cc0_transform_5 i) (hinb0_5 i)).WholeWords (EltTy.packing .f32)

variable [Facts₀]

def gather_S131072x2_S8388608x1_S8388608x2_1_0_n_n_0_1_12 : GatherDims S131072x2 S8388608x1 S8388608x2 where
  offsetDims := [1]
  collapsedSliceDims := [0]
  operandBatchingDims := []
  startIndicesBatchingDims := []
  startIndexMap := [0]
  indexVectorDim := 1
  sliceSizes := ![1, 2]
  wf := gather_S131072x2_S8388608x1_S8388608x2_1_0_n_n_0_1_12_wf
def gather_S131072_S8388608x1_S8388608_n_0_n_n_0_1_1 : GatherDims S131072 S8388608x1 S8388608 where
  offsetDims := []
  collapsedSliceDims := [0]
  operandBatchingDims := []
  startIndicesBatchingDims := []
  startIndexMap := [0]
  indexVectorDim := 1
  sliceSizes := ![1]
  wf := gather_S131072_S8388608x1_S8388608_n_0_n_n_0_1_1_wf
def dot_S1x8192_S8192x1024_S1x1024_1_0_0_1_n_n : DotDims S1x8192 S8192x1024 S1x1024 where
  lhsContracting := [1]
  rhsContracting := [0]
  lhsNonContracting := [0]
  rhsNonContracting := [1]
  lhsBatch := []
  rhsBatch := []
  wf := dot_S1x8192_S8192x1024_S1x1024_1_0_0_1_n_n_wf

abbrev win0_0 : Pipeline.Window sig grid0 :=
  Pipeline.Window.ofSpec (Memref.whole main_v19) S8192.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v21) S8192.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v23) S8192.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v25) S8192.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v32) S8192.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_v33) S1024.size cc0_transform_5 reads0_5 true true 1 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev idle0 : Fin 6 → grid0.Coords → Bool := fun | 0 => fun _ => false | 1 => fun _ => false | 2 => fun _ => false | 3 => fun _ => false | 4 => fun _ => false | 5 => fun i => !(k0_cond2 i == 1#1) | ⟨_ + 6, h⟩ => absurd h (Nat.not_lt.2 (Nat.le_add_left _ _))

class Facts : Prop extends Facts₀ where

variable [Facts]
-- ==== ReferenceIdeal.lean ====
abbrev S131072x2 : Shape := ⟨2, ![131072, 2]⟩
abbrev S2x8388608 : Shape := ⟨2, ![2, 8388608]⟩
abbrev S131072 : Shape := ⟨1, ![131072]⟩
abbrev S1x8388608 : Shape := ⟨2, ![1, 8388608]⟩
abbrev S8388608 : Shape := ⟨1, ![8388608]⟩
abbrev S_ : Shape := ⟨0, ![]⟩
abbrev S8388608x1 : Shape := ⟨2, ![8388608, 1]⟩
abbrev S8388608x2 : Shape := ⟨2, ![8388608, 2]⟩
abbrev S1024 : Shape := ⟨1, ![1024]⟩

abbrev nBuf : Space → Nat
  | .hbm => 53
  | .vmem => 0
  | .smem => 0
  | _ => 0

abbrev bufTy : (tb : Table) → Fin (tcTables nBuf tb) → BufTy
  | .hbm, ⟨0, _⟩ => ⟨S131072x2, .f32⟩
  | .hbm, ⟨1, _⟩ => ⟨S2x8388608, .i32⟩
  | .hbm, ⟨2, _⟩ => ⟨S131072, .i32⟩
  | .hbm, ⟨3, _⟩ => ⟨S1x8388608, .i32⟩
  | .hbm, ⟨4, _⟩ => ⟨S8388608, .i32⟩
  | .hbm, ⟨5, _⟩ => ⟨S_, .i32⟩
  | .hbm, ⟨6, _⟩ => ⟨S8388608, .i32⟩
  | .hbm, ⟨7, _⟩ => ⟨S8388608, .i1⟩
  | .hbm, ⟨8, _⟩ => ⟨S_, .i32⟩
  | .hbm, ⟨9, _⟩ => ⟨S8388608, .i32⟩
  | .hbm, ⟨10, _⟩ => ⟨S8388608, .i32⟩
  | .hbm, ⟨11, _⟩ => ⟨S8388608, .i32⟩
  | .hbm, ⟨12, _⟩ => ⟨S8388608x1, .i32⟩
  | .hbm, ⟨13, _⟩ => ⟨S8388608x2, .f32⟩
  | .hbm, ⟨14, _⟩ => ⟨S1x8388608, .i32⟩
  | .hbm, ⟨15, _⟩ => ⟨S8388608, .i32⟩
  | .hbm, ⟨16, _⟩ => ⟨S_, .i32⟩
  | .hbm, ⟨17, _⟩ => ⟨S8388608, .i32⟩
  | .hbm, ⟨18, _⟩ => ⟨S8388608, .i1⟩
  | .hbm, ⟨19, _⟩ => ⟨S_, .i32⟩
  | .hbm, ⟨20, _⟩ => ⟨S8388608, .i32⟩
  | .hbm, ⟨21, _⟩ => ⟨S8388608, .i32⟩
  | .hbm, ⟨22, _⟩ => ⟨S8388608, .i32⟩
  | .hbm, ⟨23, _⟩ => ⟨S8388608x1, .i32⟩
  | .hbm, ⟨24, _⟩ => ⟨S8388608x2, .f32⟩
  | .hbm, ⟨25, _⟩ => ⟨S8388608x2, .f32⟩
  | .hbm, ⟨26, _⟩ => ⟨S8388608x2, .f32⟩
  | .hbm, ⟨27, _⟩ => ⟨S_, .f32⟩
  | .hbm, ⟨28, _⟩ => ⟨S8388608, .f32⟩
  | .hbm, ⟨29, _⟩ => ⟨S8388608, .f32⟩
  | .hbm, ⟨30, _⟩ => ⟨S_, .f32⟩
  | .hbm, ⟨31, _⟩ => ⟨S8388608, .f32⟩
  | .hbm, ⟨32, _⟩ => ⟨S8388608, .f32⟩
  | .hbm, ⟨33, _⟩ => ⟨S8388608, .f32⟩
  | .hbm, ⟨34, _⟩ => ⟨S1x8388608, .i32⟩
  | .hbm, ⟨35, _⟩ => ⟨S8388608, .i32⟩
  | .hbm, ⟨36, _⟩ => ⟨S_, .i32⟩
  | .hbm, ⟨37, _⟩ => ⟨S8388608, .i32⟩
  | .hbm, ⟨38, _⟩ => ⟨S8388608, .i1⟩
  | .hbm, ⟨39, _⟩ => ⟨S_, .i32⟩
  | .hbm, ⟨40, _⟩ => ⟨S8388608, .i32⟩
  | .hbm, ⟨41, _⟩ => ⟨S8388608, .i32⟩
  | .hbm, ⟨42, _⟩ => ⟨S8388608, .i32⟩
  | .hbm, ⟨43, _⟩ => ⟨S8388608x1, .i32⟩
  | .hbm, ⟨44, _⟩ => ⟨S8388608, .i32⟩
  | .hbm, ⟨45, _⟩ => ⟨S_, .f32⟩
  | .hbm, ⟨46, _⟩ => ⟨S1024, .f32⟩
  | .hbm, ⟨47, _⟩ => ⟨S8388608x1, .i32⟩
  | .hbm, ⟨48, _⟩ => ⟨S1024, .f32⟩
  | .hbm, ⟨49, _⟩ => ⟨S_, .f32⟩
  | .hbm, ⟨50, _⟩ => ⟨S_, .f32⟩
  | .hbm, ⟨51, _⟩ => ⟨S_, .f32⟩
  | .hbm, ⟨52, _⟩ => ⟨S_, .f32⟩
  | _, _ => ⟨S131072x2, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_c : Ref sig .tc := ⟨.hbm, 5, rfl⟩
abbrev main_v2 : Ref sig .tc := ⟨.hbm, 6, rfl⟩
abbrev main_v3 : Ref sig .tc := ⟨.hbm, 7, rfl⟩
abbrev main_c_0 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_c_1 : Ref sig .tc := ⟨.hbm, 16, rfl⟩
abbrev main_v11 : Ref sig .tc := ⟨.hbm, 17, rfl⟩
abbrev main_v12 : Ref sig .tc := ⟨.hbm, 18, rfl⟩
abbrev main_c_2 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_call0_v0 : Ref sig .tc := ⟨.hbm, 26, rfl⟩
abbrev main_call0_cst : Ref sig .tc := ⟨.hbm, 27, rfl⟩
abbrev main_call0_v1 : Ref sig .tc := ⟨.hbm, 28, rfl⟩
abbrev main_v19 : Ref sig .tc := ⟨.hbm, 29, rfl⟩
abbrev main_cst : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_c_3 : Ref sig .tc := ⟨.hbm, 36, rfl⟩
abbrev main_v25 : Ref sig .tc := ⟨.hbm, 37, rfl⟩
abbrev main_v26 : Ref sig .tc := ⟨.hbm, 38, rfl⟩
abbrev main_c_4 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_cst_5 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_cst_6 : Ref sig .tc := ⟨.hbm, 49, rfl⟩
abbrev main_v35 : Ref sig .tc := ⟨.hbm, 50, rfl⟩
abbrev main_cst_7 : Ref sig .tc := ⟨.hbm, 51, rfl⟩
abbrev main_v36 : Ref sig .tc := ⟨.hbm, 52, rfl⟩

abbrev nD : Nat := 1
abbrev τ : Topo := Topo.v7x

variable {F : FTy → Type} [FloatOps F]

class Facts₀ : Prop where
  slices_S2x8388608_S1x8388608_0_0 : S2x8388608.Slices ![0, 0] S1x8388608
  shapeCasts_S1x8388608_S8388608 : S1x8388608.ShapeCasts S8388608
  bcast_S_S8388608 : S_.BroadcastsInDim S8388608 (![] : Fin 0 → Fin S8388608.rank)
  bcast_S8388608_S8388608x1_0 : S8388608.BroadcastsInDim S8388608x1 (![0] : Fin 1 → Fin S8388608x1.rank)
  slices_S2x8388608_S1x8388608_1_0 : S2x8388608.Slices ![1, 0] S1x8388608
  reducesTo_S8388608x2_S8388608_d1 : S8388608x2.ReducesTo [1] S8388608
  h_S_ : 0 < S_.numel
  bcast_S_S1024 : S_.BroadcastsInDim S1024 (![] : Fin 0 → Fin S1024.rank)
  reducesTo_S1024_S_d0 : S1024.ReducesTo [0] S_
  gather_S131072x2_S8388608x1_S8388608x2_1_0_n_n_0_1_12_wf : GatherDims.WF S131072x2 S8388608x1 S8388608x2 [1] [0] [] [0] [] 1 ![1, 2]
  gather_S131072_S8388608x1_S8388608_n_0_n_n_0_1_1_wf : GatherDims.WF S131072 S8388608x1 S8388608 [] [0] [] [0] [] 1 ![1]
  scatter_S1024_S8388608x1_S8388608_n_0_0_1_wf : ScatterDims.WF S1024 S8388608x1 S8388608 [] [0] [0] 1

variable [Facts₀]

def gather_S131072x2_S8388608x1_S8388608x2_1_0_n_n_0_1_12 : GatherDims S131072x2 S8388608x1 S8388608x2 where
  offsetDims := [1]
  collapsedSliceDims := [0]
  operandBatchingDims := []
  startIndicesBatchingDims := []
  startIndexMap := [0]
  indexVectorDim := 1
  sliceSizes := ![1, 2]
  wf := gather_S131072x2_S8388608x1_S8388608x2_1_0_n_n_0_1_12_wf
def gather_S131072_S8388608x1_S8388608_n_0_n_n_0_1_1 : GatherDims S131072 S8388608x1 S8388608 where
  offsetDims := []
  collapsedSliceDims := [0]
  operandBatchingDims := []
  startIndicesBatchingDims := []
  startIndexMap := [0]
  indexVectorDim := 1
  sliceSizes := ![1]
  wf := gather_S131072_S8388608x1_S8388608_n_0_n_n_0_1_1_wf
def scatter_S1024_S8388608x1_S8388608_n_0_0_1 : ScatterDims S1024 S8388608x1 S8388608 where
  updateWindowDims := []
  insertedWindowDims := [0]
  scatterDimsToOperandDims := [0]
  indexVectorDim := 1
  wf := scatter_S1024_S8388608x1_S8388608_n_0_0_1_wf

class Facts : Prop extends Facts₀ where

variable [Facts]
-- ==== Proof.Spec.lean ====
/-
  The mathematics of the edge-decay bucket sum.

  Every edge e has a value  decay e = exp (-1 · √((ex - sx)² + (ey - sy)²))  computed from its two endpoints, and a
  bucket number g e (a 32-bit word).  The result array has 1024 entries; entry j collects the values of the edges
  whose bucket number, read as a signed integer, is j.

  One side forms this sum the way a one-hot product does, block after block: the edges are cut into 1024
  consecutive blocks of 8192, each block contributes  ∑ₖ decay k · hot (g k) j  with  hot g j ∈ {0, 1}  the
  indicator of g = j, and the contributions are added up block by block starting from zero.  The other side is the
  plain conditional sum over all 8388608 edges.  Both are sums of the same terms: multiplying by the indicator is
  selecting the term, and a sum over Fin (1024 · 8192) is a sum over blocks of a sum inside each block.  Nothing
  here needs the values to be finite: on the extended reals x · 1 = x, x · 0 = 0 and addition is commutative and
  associative without exception.
-/
import Idealize.ShloMosaic.PureOps.Ideal
import Idealize.ShloMosaic.PureOps.Ideal.Laws
import Idealize.ShloMosaic.Lib.ValueIdx
import Idealize.ShloMosaic.Lib.StableHlo.Predicate
import Mathlib.Algebra.BigOperators.Fin
import Mathlib.Logic.Equiv.Fin.Basic

noncomputable section

namespace EdgeDecay

open Idealize.ShloMosaic Idealize.ShloMosaic.ValueIdx

/-- The value of one edge from its endpoints' coordinates: exp (-1 · √((ex - sx)² + (ey - sy)²)). -/
def decay (sx sy ex ey : EReal) : EReal :=
  Ideal.exp (Ideal.ofBits .f32 0xBF800000#32 * Ideal.sqrt ((ex - sx) * (ex - sx) + (ey - sy) * (ey - sy)))

/-- The one-hot weight of bucket j for an edge whose bucket word is g: the comparison bit, widened to a word and read
    as a signed integer. -/
def hot (g : BitVec 32) (j : Fin 1024) : EReal :=
  ((((IntOp.cmpi .eq g (BitVec.ofNat 32 j.val)).setWidth 32).toInt : ℝ) : EReal)

/-- A bucket word equals the word of j < 1024 exactly when its signed reading is j. -/
theorem word_eq_iff (g : BitVec 32) (j : Fin 1024) : g = BitVec.ofNat 32 j.val ↔ g.toInt = (j.val : ℤ) := by
  have hj := j.isLt
  have hto : (BitVec.ofNat 32 j.val).toInt = (j.val : ℤ) := by
    rw [BitVec.toInt_eq_toNat_cond, BitVec.toNat_ofNat]
    have hm : j.val % 2 ^ 32 = j.val := Nat.mod_eq_of_lt (by omega)
    rw [hm, if_pos (by omega)]
  constructor
  · intro h; rw [h, hto]
  · intro h; exact BitVec.eq_of_toInt_eq (h.trans hto.symm)

/-- The one-hot weight is the indicator of "the bucket word, read signed, is j". -/
theorem hot_eq (g : BitVec 32) (j : Fin 1024) : hot g j = if g.toInt = (j.val : ℤ) then 1 else 0 := by
  unfold hot
  by_cases h : g = BitVec.ofNat 32 j.val
  · rw [if_pos ((word_eq_iff g j).mp h), (StableHlo.Predicate.cmpi_eq_iff).mpr h]
    norm_num
  · rw [if_neg (fun h' => h ((word_eq_iff g j).mpr h')),
      eq_zero_of_ne_one (fun h' => h ((StableHlo.Predicate.cmpi_eq_iff).mp h'))]
    norm_num

/-- Weighting a value by the indicator selects it. -/
theorem mul_hot (x : EReal) (g : BitVec 32) (j : Fin 1024) :
    x * hot g j = if g.toInt = (j.val : ℤ) then x else 0 := by
  rw [hot_eq]
  split
  · exact mul_one x
  · exact mul_zero x

/-- Position k of block t among 1024 consecutive blocks of 8192. -/
def edgeOf (t : Fin 1024) (k : Fin 8192) : Fin 8388608 := ⟨8192 * t.val + k.val, by have := t.isLt; have := k.isLt; omega⟩

/-- A sum over all edges is the sum over the blocks of the sum inside each block. -/
theorem sum_blocks {M : Type*} [AddCommMonoid M] (f : Fin 8388608 → M) :
    ∑ e : Fin 8388608, f e = ∑ t : Fin 1024, ∑ k : Fin 8192, f (edgeOf t k) := by
  rw [← Fintype.sum_prod_type']
  refine (Fintype.sum_equiv (finProdFinEquiv (m := 1024) (n := 8192)) _ _ fun p => ?_).symm
  refine congrArg f (Fin.ext ?_)
  show 8192 * p.1.val + p.2.val = p.2.val + 8192 * p.1.val
  omega

/-- What block t contributes to bucket j: its edges' values, each weighted by its one-hot weight. -/
def blockPart (v : Fin 8388608 → EReal) (g : Fin 8388608 → BitVec 32) (j : Fin 1024) (t : Fin 1024) : EReal :=
  ∑ k : Fin 8192, v (edgeOf t k) * hot (g (edgeOf t k)) j

/-- The running total of bucket j after the blocks 0 … n. -/
def runningTotal (v : Fin 8388608 → EReal) (g : Fin 8388608 → BitVec 32) (j : Fin 1024) (n : ℕ) : EReal :=
  ∑ t : Fin 1024, if t.val ≤ n then blockPart v g j t else 0

theorem runningTotal_zero (v : Fin 8388608 → EReal) (g : Fin 8388608 → BitVec 32) (j : Fin 1024) :
    runningTotal v g j 0 = blockPart v g j 0 := by
  unfold runningTotal
  rw [Finset.sum_eq_single (0 : Fin 1024)]
  · exact if_pos (Nat.le_refl _)
  · intro t _ ht
    exact if_neg (fun h => ht (Fin.ext (Nat.le_zero.mp h)))
  · intro h; exact absurd (Finset.mem_univ _) h

theorem runningTotal_succ (v : Fin 8388608 → EReal) (g : Fin 8388608 → BitVec 32) (j : Fin 1024) (n : ℕ) (hn : n + 1 < 1024) :
    runningTotal v g j (n + 1) = runningTotal v g j n + blockPart v g j ⟨n + 1, hn⟩ := by
  unfold runningTotal
  have : blockPart v g j ⟨n + 1, hn⟩ = ∑ t : Fin 1024, if t = ⟨n + 1, hn⟩ then blockPart v g j t else 0 := by
    rw [Finset.sum_ite_eq' Finset.univ (⟨n + 1, hn⟩ : Fin 1024) (fun t => blockPart v g j t), if_pos (Finset.mem_univ _)]
  rw [this, ← Finset.sum_add_distrib]
  refine Finset.sum_congr rfl fun t _ => ?_
  by_cases h1 : t.val ≤ n
  · rw [if_pos h1, if_pos (by omega : t.val ≤ n + 1), if_neg (fun h => by rw [h] at h1; simp at h1), add_zero]
  · by_cases h2 : t = ⟨n + 1, hn⟩
    · rw [if_neg h1, if_pos h2, if_pos (by rw [h2]), zero_add]
    · have : ¬ t.val ≤ n + 1 := fun h => h2 (Fin.ext (by show t.val = n + 1; omega))
      rw [if_neg h1, if_neg h2, if_neg this, add_zero]

/-- After the last block the running total of bucket j is the conditional sum over all edges. -/
theorem runningTotal_last (v : Fin 8388608 → EReal) (g : Fin 8388608 → BitVec 32) (j : Fin 1024) :
    runningTotal v g j 1023 = ∑ e : Fin 8388608, if (g e).toInt = (j.val : ℤ) then v e else 0 := by
  unfold runningTotal blockPart
  rw [sum_blocks]
  refine Finset.sum_congr rfl fun t _ => ?_
  rw [if_pos (by have := t.isLt; omega)]
  exact Finset.sum_congr rfl fun k _ => mul_hot _ _ _

/-! ## The bucket sums as one function of the gathered arrays -/

/-- The value of edge e from the two arrays of gathered endpoint rows: A holds the start points, B the end points,
    a row being (x, y). -/
def edgeValue (A B : FVec Ideal ⟨2, ![8388608, 2]⟩ .f32) (e : Fin 8388608) : EReal :=
  decay (A (ix2 e 0)) (A (ix2 e 1)) (B (ix2 e 0)) (B (ix2 e 1))

/-- Entry j of the result: the values of the edges whose bucket word, read signed, is j. -/
def buckets (A B : FVec Ideal ⟨2, ![8388608, 2]⟩ .f32) (G : IVec ⟨1, ![8388608]⟩ 32) : FVec Ideal ⟨1, ![1024]⟩ .f32 :=
  fun j => ∑ e : Fin 8388608, if (G (ix1 e)).toInt = ((j 0).val : ℤ) then edgeValue A B e else 0

theorem buckets_apply (A B : FVec Ideal ⟨2, ![8388608, 2]⟩ .f32) (G : IVec ⟨1, ![8388608]⟩ 32) (j : Fin 1024) :
    buckets A B G (ix1 j) = ∑ e : Fin 8388608, if (G (ix1 e)).toInt = (j.val : ℤ) then edgeValue A B e else 0 := rfl

end EdgeDecay

end
-- ==== Proof.LibRows.lean ====
/-
  Row-wise reading of two-dimensional arrays at the ideal values, for any number of rows.

  A network that treats every row of its input alike (a chain of affine layers, pointwise
  functions, joins of feature vectors and reductions along the feature axis) is one function of a
  single row. This file says so layer by layer, at the level of whole arrays: an array is
  `ofRows f` when its row `i` is `f i`, and each layer sends `ofRows f` to `ofRows` of the
  layer's row function applied to `f i`. The statements hold for every row count, so the same
  lemma reads a block of rows and the whole array.

  * `lin w b v`: the affine map `j ↦ (∑ₖ v k · w (j,k)) + b j` (weights stored output-major).
  * `cat u v`: two feature vectors joined.
  * `rowMax`, `rowSum`: the fold of `max` from `⊥`, and the sum, over a row.
-/
import Idealize.ShloMosaic.Lib.ValueIdx
import Idealize.ShloMosaic.Lib.ValueLayout
import Idealize.ShloMosaic.Lib.Pipeline.Value
import Idealize.ShloMosaic.Lib.KernelVsHost
import Idealize.ShloMosaic.Lib.IdealHost
import Idealize.ShloMosaic.PureOps.Ideal.Laws

noncomputable section

namespace Idealize.ShloMosaic.Rows

open Idealize.ShloMosaic Idealize.ShloMosaic.ValueIdx

variable {N K M : ℕ}

/-! ## Arrays as families of rows -/

/-- The array whose row `i` is `f i`. -/
def ofRows (f : Fin N → Fin K → EReal) : FVec Ideal ⟨2, ![N, K]⟩ .f32 := fun i => f (i 0) (i 1)

/-- Row `i` of an array. -/
def rowOf (A : FVec Ideal ⟨2, ![N, K]⟩ .f32) (i : Fin N) : Fin K → EReal := fun k => A (ix2 i k)

theorem rowOf_ofRows (f : Fin N → Fin K → EReal) (i : Fin N) : rowOf (ofRows f) i = f i := rfl

theorem ofRows_apply (f : Fin N → Fin K → EReal) (i : Fin N) (k : Fin K) : ofRows f (ix2 i k) = f i k := rfl

theorem ofRows_rowOf (A : FVec Ideal ⟨2, ![N, K]⟩ .f32) : ofRows (rowOf A) = A :=
  funext fun i => (congrArg A (eq_ix2 i)).symm

/-- Two arrays are equal when they agree at every (row, column). -/
theorem ext_ix2 {A B : FVec Ideal ⟨2, ![N, K]⟩ .f32} (h : ∀ i k, A (ix2 i k) = B (ix2 i k)) : A = B :=
  funext fun j => by rw [eq_ix2 j]; exact h _ _

/-! ## A plain matrix product read at (row, column) -/

theorem plain_lhs_0 (i : (⟨2, ![N, M]⟩ : Shape).Idx) (q : (DotDims.plain N K M).contr.Idx) :
    ((DotDims.plain N K M).lhsIdx i q 0).val = (i 0).val := by
  unfold DotDims.lhsIdx
  rw [dif_neg (show ¬(0 : Fin (⟨2, ![N, K]⟩ : Shape).rank) ∈ (DotDims.plain N K M).lhsBatch from List.not_mem_nil),
    dif_pos (show (0 : Fin (⟨2, ![N, K]⟩ : Shape).rank) ∈ (DotDims.plain N K M).lhsNonContracting from List.mem_singleton.mpr rfl)]
  rfl

theorem plain_lhs_1 (i : (⟨2, ![N, M]⟩ : Shape).Idx) (q : (DotDims.plain N K M).contr.Idx) :
    ((DotDims.plain N K M).lhsIdx i q 1).val = (q ⟨0, Nat.one_pos⟩).val :=
  (DotDims.plain N K M).lhsIdx_val_of_single rfl i q

theorem plain_rhs_0 (i : (⟨2, ![N, M]⟩ : Shape).Idx) (q : (DotDims.plain N K M).contr.Idx) :
    ((DotDims.plain N K M).rhsIdx i q 0).val = (q ⟨0, Nat.one_pos⟩).val :=
  (DotDims.plain N K M).rhsIdx_val_of_single rfl i q

theorem plain_rhs_1 (i : (⟨2, ![N, M]⟩ : Shape).Idx) (q : (DotDims.plain N K M).contr.Idx) :
    ((DotDims.plain N K M).rhsIdx i q 1).val = (i 1).val := by
  unfold DotDims.rhsIdx
  rw [dif_neg (show ¬(1 : Fin (⟨2, ![K, M]⟩ : Shape).rank) ∈ (DotDims.plain N K M).rhsBatch from List.not_mem_nil),
    dif_pos (show (1 : Fin (⟨2, ![K, M]⟩ : Shape).rank) ∈ (DotDims.plain N K M).rhsNonContracting from List.mem_singleton.mpr rfl)]
  rfl

/-- The sum over the one contracted axis, re-indexed by its coordinate. -/
theorem plain_sum (l : FVec Ideal ⟨2, ![N, K]⟩ .f32) (r : FVec Ideal ⟨2, ![K, M]⟩ .f32) (i : Fin N) (j : Fin M) :
    (∑ q : (DotDims.plain N K M).contr.Idx, l ((DotDims.plain N K M).lhsIdx (ix2 i j) q) * r ((DotDims.plain N K M).rhsIdx (ix2 i j) q))
      = ∑ k : Fin K, l (ix2 i k) * r (ix2 k j) := by
  rw [← Equiv.sum_comp (contrEquiv1 (DotDims.plain N K M) K rfl rfl).symm]
  refine Finset.sum_congr rfl fun k _ => ?_
  have hk := contrEquiv1_symm_val (DotDims.plain N K M) K rfl rfl k
  have el : (DotDims.plain N K M).lhsIdx (ix2 i j) ((contrEquiv1 (DotDims.plain N K M) K rfl rfl).symm k) = ix2 i k :=
    funext fun a => Fin.ext (by
      match a with
      | ⟨0, _⟩ => exact plain_lhs_0 _ _
      | ⟨1, _⟩ => exact (plain_lhs_1 _ _).trans hk)
  have er : (DotDims.plain N K M).rhsIdx (ix2 i j) ((contrEquiv1 (DotDims.plain N K M) K rfl rfl).symm k) = ix2 k j :=
    funext fun a => Fin.ext (by
      match a with
      | ⟨0, _⟩ => exact (plain_rhs_0 _ _).trans hk
      | ⟨1, _⟩ => exact plain_rhs_1 _ _)
  rw [el, er]

/-- A kernel's matrix product into a zero accumulator, at (i, j): the sum over k of l (i,k) · r (k,j). -/
theorem matmul_plain_apply (l : FVec Ideal ⟨2, ![N, K]⟩ .f32) (r : FVec Ideal ⟨2, ![K, M]⟩ .f32) (i : Fin N) (j : Fin M) :
    matmul (DotDims.plain N K M) none l r (constant ⟨2, ![N, M]⟩ .f32 0x00000000#32) (ix2 i j)
      = ∑ k : Fin K, l (ix2 i k) * r (ix2 k j) := by
  show FloatOps.matmul (DotDims.plain N K M) none l r (constant ⟨2, ![N, M]⟩ .f32 0x00000000#32) (ix2 i j) = _
  rw [Ideal.matmul_constant_zero_apply]
  exact plain_sum l r i j

/-- The host's product, at (i, j): the same sum. -/
theorem dotGeneral_plain_apply (l : FVec Ideal ⟨2, ![N, K]⟩ .f32) (r : FVec Ideal ⟨2, ![K, M]⟩ .f32) (i : Fin N) (j : Fin M) :
    Host.dotGeneral (DotDims.plain N K M) none l r (ix2 i j) = ∑ k : Fin K, l (ix2 i k) * r (ix2 k j) := by
  show FloatOps.dotGeneral (DotDims.plain N K M) none .single l r (ix2 i j) = _
  rw [Ideal.dotGeneral_apply]
  exact plain_sum l r i j

/-! ## An affine layer -/

/-- One affine layer on a row `v`: output feature `j` is `(∑ₖ v k · w (j,k)) + b j`. -/
def lin (w : FVec Ideal ⟨2, ![M, K]⟩ .f32) (b : FVec Ideal ⟨1, ![M]⟩ .f32) (v : Fin K → EReal) : Fin M → EReal :=
  fun j => (∑ k : Fin K, v k * w (ix2 j k)) + b (ix1 j)

/-- The kernel's spelling of an affine layer: product with the transposed weights into a zero accumulator, plus the
    bias laid along every row. -/
theorem klin_eq (h : FVec Ideal ⟨2, ![N, K]⟩ .f32) (w : FVec Ideal ⟨2, ![M, K]⟩ .f32) (b : FVec Ideal ⟨1, ![M]⟩ .f32)
    (tr : (⟨2, ![M, K]⟩ : Shape).Transposes [1, 0] ⟨2, ![K, M]⟩) (sc : (⟨1, ![M]⟩ : Shape).ShapeCasts ⟨2, ![1, M]⟩)
    (bc : (⟨2, ![1, M]⟩ : Shape).Broadcasts ⟨2, ![N, M]⟩) :
    addf (matmul (DotDims.plain N K M) none h (transpose ⟨2, ![K, M]⟩ [1, 0] w tr) (constant ⟨2, ![N, M]⟩ .f32 0x00000000#32))
        (broadcastTo ⟨2, ![N, M]⟩ (shapeCast ⟨2, ![1, M]⟩ b sc) bc)
      = ofRows fun i => lin w b (rowOf h i) := by
  refine ext_ix2 fun i j => ?_
  rw [addf_apply, matmul_plain_apply, broadcastTo_1b_ab_apply, shapeCast_a_1a_apply, ofRows_apply]
  unfold lin rowOf
  exact congrArg (· + b (ix1 j)) (Finset.sum_congr rfl fun k _ => by rw [transpose_ix2_apply])

/-- The host's spelling: `dot_general` with the transposed weights, plus the bias broadcast in two steps. -/
theorem hlin_eq (h : FVec Ideal ⟨2, ![N, K]⟩ .f32) (w : FVec Ideal ⟨2, ![M, K]⟩ .f32) (b : FVec Ideal ⟨1, ![M]⟩ .f32)
    (tr : (⟨2, ![M, K]⟩ : Shape).Transposes [1, 0] ⟨2, ![K, M]⟩)
    (b1 : (⟨1, ![M]⟩ : Shape).BroadcastsInDim ⟨2, ![1, M]⟩ ![1])
    (b2 : (⟨2, ![1, M]⟩ : Shape).BroadcastsInDim ⟨2, ![N, M]⟩ ![0, 1]) :
    addf (Host.dotGeneral (DotDims.plain N K M) none h (transpose ⟨2, ![K, M]⟩ [1, 0] w tr))
        (broadcastInDim ⟨2, ![N, M]⟩ ![0, 1] b2 (broadcastInDim ⟨2, ![1, M]⟩ ![1] b1 b))
      = ofRows fun i => lin w b (rowOf h i) := by
  refine ext_ix2 fun i j => ?_
  rw [addf_apply, dotGeneral_plain_apply, Idealize.ShloMosaic.broadcastInDim_oneRow_apply, ofRows_apply]
  have e : broadcastInDim ⟨2, ![1, M]⟩ ![1] b1 b (ix2 (0 : Fin 1) j) = b (ix1 j) :=
    broadcastInDim_apply ![1] b1 b (ix2 (0 : Fin 1) j) (ix1 j) fun a => by
      match a with
      | ⟨0, _⟩ =>
        show j.val = if M = 1 then 0 else j.val
        split
        · have := j.isLt; omega
        · rfl
  rw [e]
  unfold lin rowOf
  exact congrArg (· + b (ix1 j)) (Finset.sum_congr rfl fun k _ => by rw [transpose_ix2_apply])

/-! ## Two feature vectors joined -/

/-- `u` followed by `v`. -/
def cat {A B C : ℕ} (hC : A + B = C) (u : Fin A → EReal) (v : Fin B → EReal) : Fin C → EReal :=
  fun j => if h : j.val < A then u ⟨j.val, h⟩ else v ⟨j.val - A, by have := j.isLt; omega⟩

/-- Joining two arrays along the feature axis joins their rows. -/
theorem cat_eq {A B C : ℕ} (hC : A + B = C) (x₁ : FVec Ideal ⟨2, ![N, A]⟩ .f32) (x₂ : FVec Ideal ⟨2, ![N, B]⟩ .f32)
    (hc : Shape.Concatenates [⟨2, ![N, A]⟩, ⟨2, ![N, B]⟩] ⟨2, ![N, C]⟩ 1) :
    concatenate ⟨2, ![N, C]⟩ 1 [⟨⟨2, ![N, A]⟩, x₁⟩, ⟨⟨2, ![N, B]⟩, x₂⟩] hc
      = ofRows fun i => cat hC (rowOf x₁ i) (rowOf x₂ i) := by
  refine ext_ix2 fun i j => ?_
  rw [ofRows_apply]
  unfold cat rowOf
  by_cases h : j.val < A
  · rw [dif_pos h]
    exact concatenate_pair_apply_left 1 x₁ x₂ hc (ix2 i j) rfl (ix2 i ⟨j.val, h⟩) fun b => by
      match b with
      | ⟨0, _⟩ => rfl
      | ⟨1, _⟩ => rfl
  · rw [dif_neg h]
    have hj := j.isLt
    refine concatenate_pair_apply_right 1 x₁ x₂ hc (ix2 i j) rfl rfl (ix2 i ⟨j.val - A, by omega⟩) (fun b hb => ?_) ?_
    · match b with
      | ⟨0, _⟩ => rfl
      | ⟨1, _⟩ => exact absurd rfl hb
    · show j.val - A + A = j.val
      omega

/-! ## Pointwise operations, row by row -/

section Pointwise
variable (x y : FVec Ideal ⟨2, ![N, K]⟩ .f32)

theorem sin_rows : sin x = ofRows fun i k => Ideal.sin (rowOf x i k) := ext_ix2 fun _ _ => rfl
theorem cos_rows : cos x = ofRows fun i k => Ideal.cos (rowOf x i k) := ext_ix2 fun _ _ => rfl
theorem exp_rows : exp x = ofRows fun i k => Ideal.exp (rowOf x i k) := ext_ix2 fun _ _ => rfl
theorem hsin_rows : Host.sin x = ofRows fun i k => Ideal.sin (rowOf x i k) := ext_ix2 fun _ _ => rfl
theorem hcos_rows : Host.cos x = ofRows fun i k => Ideal.cos (rowOf x i k) := ext_ix2 fun _ _ => rfl
theorem hexp_rows : Host.exp x = ofRows fun i k => Ideal.exp (rowOf x i k) := ext_ix2 fun _ _ => rfl
theorem addf_rows : addf x y = ofRows fun i k => rowOf x i k + rowOf y i k := ext_ix2 fun _ _ => rfl
theorem subf_rows : subf x y = ofRows fun i k => rowOf x i k - rowOf y i k := ext_ix2 fun _ _ => rfl
theorem mulf_rows : mulf x y = ofRows fun i k => rowOf x i k * rowOf y i k := ext_ix2 fun _ _ => rfl
theorem maximumf_rows : maximumf x y = ofRows fun i k => max (rowOf x i k) (rowOf y i k) := ext_ix2 fun _ _ => rfl
theorem divf_rows : divf x y = ofRows fun i k => Ideal.div (rowOf x i k) (rowOf y i k) := ext_ix2 fun _ _ => rfl
theorem hdivf_rows : Host.divf x y = ofRows fun i k => Ideal.div (rowOf x i k) (rowOf y i k) := ext_ix2 fun _ _ => rfl

end Pointwise

/-- A row of a kernel's scalar splat. -/
theorem rowOf_broadcast (b : BitVec 32) (i : Fin N) :
    rowOf (broadcast ⟨2, ![N, K]⟩ (Scalar.ofBits (F := Ideal) .f32 b)) i = fun _ => Ideal.ofBits .f32 b := rfl

/-- A row of the host's scalar constant broadcast to an array. -/
theorem rowOf_broadcastInDim_const (b : BitVec 32) (hb : (⟨0, ![]⟩ : Shape).BroadcastsInDim ⟨2, ![N, K]⟩ ![]) (i : Fin N) :
    rowOf (broadcastInDim ⟨2, ![N, K]⟩ ![] hb (constant (F := Ideal) ⟨0, ![]⟩ .f32 b)) i = fun _ => Ideal.ofBits .f32 b :=
  funext fun k => broadcastInDim_scalar_apply hb _ (ix2 i k)

/-! ## One value per row -/

/-- The one-axis array whose entry `i` is `f i`. -/
def ofVals (f : Fin N → EReal) : FVec Ideal ⟨1, ![N]⟩ .f32 := fun i => f (i 0)

/-- Entry `i` of a one-axis array. -/
def valOf (c : FVec Ideal ⟨1, ![N]⟩ .f32) (i : Fin N) : EReal := c (ix1 i)

theorem valOf_ofVals (f : Fin N → EReal) (i : Fin N) : valOf (ofVals f) i = f i := rfl

theorem ext_ix1 {a b : FVec Ideal ⟨1, ![N]⟩ .f32} (h : ∀ i, a (ix1 i) = b (ix1 i)) : a = b :=
  funext fun j => by rw [eq_ix1 j]; exact h _

theorem maximumf_vals (a b : FVec Ideal ⟨1, ![N]⟩ .f32) : maximumf a b = ofVals fun i => max (valOf a i) (valOf b i) :=
  ext_ix1 fun _ => rfl

theorem valOf_broadcast (b : BitVec 32) (i : Fin N) :
    valOf (broadcast ⟨1, ![N]⟩ (Scalar.ofBits (F := Ideal) .f32 b)) i = Ideal.ofBits .f32 b := rfl

theorem valOf_broadcastInDim_const (b : BitVec 32) (hb : (⟨0, ![]⟩ : Shape).BroadcastsInDim ⟨1, ![N]⟩ ![]) (i : Fin N) :
    valOf (broadcastInDim ⟨1, ![N]⟩ ![] hb (constant (F := Ideal) ⟨0, ![]⟩ .f32 b)) i = Ideal.ofBits .f32 b :=
  broadcastInDim_scalar_apply hb _ (ix1 i)

/-- The index a reduction over the feature axis reads: row `i`, feature `k`. -/
theorem lift_ix1 (h : (⟨2, ![N, M]⟩ : Shape).Reduces [1] ⟨1, ![N]⟩) (i : Fin N) (k : Fin M) :
    h.lift (ix1 i) k = ix2 i k :=
  funext fun a => Fin.ext (by
    match a with
    | ⟨0, _⟩ => rfl
    | ⟨1, _⟩ => rfl)

/-- The largest entry of a row, folded from the word `0xFF800000`'s value. -/
def rowMax (v : Fin M → EReal) : EReal := (Finset.univ : Finset (Fin M)).fold max (Ideal.ofBits .f32 0xFF800000#32) v

/-- A kernel's maximum along the feature axis. -/
theorem kmax_eq (x : FVec Ideal ⟨2, ![N, M]⟩ .f32) (h : (⟨2, ![N, M]⟩ : Shape).Reduces [1] ⟨1, ![N]⟩)
    (hφ : FKind.Formats .f32) (hacc : (0xFF800000#32 : BitVec 32) = FKind.maximumf.neutral .f32 hφ) :
    multiReduction .maximumf [1] ⟨1, ![N]⟩ x 0xFF800000#32 h hφ hacc = ofVals fun i => rowMax (rowOf x i) := by
  refine ext_ix1 fun i => ?_
  rw [Ideal.multiReduction_maximumf_single]
  show _ = rowMax (rowOf x i)
  unfold rowMax
  congr 1
  funext k
  exact congrArg x (lift_ix1 h i k)

/-- The host's maximum along the feature axis, from the same initial word. -/
theorem hmax_eq (x : FVec Ideal ⟨2, ![N, M]⟩ .f32) (h' : (⟨2, ![N, M]⟩ : Shape).ReducesTo [1] ⟨1, ![N]⟩)
    (h : (⟨2, ![N, M]⟩ : Shape).Reduces [1] ⟨1, ![N]⟩) (hu : 0 < (⟨0, ![]⟩ : Shape).numel) :
    Host.reduce FloatOps.maximumf x (constant (F := Ideal) ⟨0, ![]⟩ .f32 0xFF800000#32) h' hu
      = ofVals fun i => rowMax (rowOf x i) := by
  refine ext_ix1 fun i => ?_
  rw [Host.reduce_eq_fold_single FloatOps.maximumf x _ h' h hu]
  show _ = rowMax (rowOf x i)
  unfold rowMax
  congr 1
  funext k
  exact congrArg x (lift_ix1 h i k)

/-- A kernel's sum along the feature axis. -/
theorem ksum_eq (x : FVec Ideal ⟨2, ![N, M]⟩ .f32) (h : (⟨2, ![N, M]⟩ : Shape).Reduces [1] ⟨1, ![N]⟩)
    (hφ : FKind.Formats .f32) (hacc : (0x00000000#32 : BitVec 32) = FKind.add.neutral .f32 hφ) :
    multiReduction .add [1] ⟨1, ![N]⟩ x 0x00000000#32 h hφ hacc = ofVals fun i => ∑ k : Fin M, rowOf x i k := by
  refine ext_ix1 fun i => ?_
  rw [Ideal.multiReduction_add_single]
  exact Finset.sum_congr rfl fun k _ => congrArg x (lift_ix1 h i k)

/-- The host's sum along the feature axis from a zero initial value. -/
theorem hsum_eq (x : FVec Ideal ⟨2, ![N, M]⟩ .f32) (h' : (⟨2, ![N, M]⟩ : Shape).ReducesTo [1] ⟨1, ![N]⟩)
    (h : (⟨2, ![N, M]⟩ : Shape).Reduces [1] ⟨1, ![N]⟩) (hu : 0 < (⟨0, ![]⟩ : Shape).numel) :
    Host.reduceAdd x (constant (F := Ideal) ⟨0, ![]⟩ .f32 0x00000000#32) h' hu
      = ofVals fun i => ∑ k : Fin M, rowOf x i k := by
  refine ext_ix1 fun i => ?_
  rw [hostReduceAdd_apply, Ideal.hostReduceAdd_single h' h]
  show Ideal.ofBits .f32 0x00000000#32 + _ = _
  rw [Ideal.ofBits_zero_f32, zero_add]
  exact Finset.sum_congr rfl fun k _ => congrArg x (lift_ix1 h i k)

/-! ## One value per row laid along the row -/

/-- The kernel's way: a unit feature axis added, then broadcast along it. -/
theorem kcol_eq (c : FVec Ideal ⟨1, ![N]⟩ .f32) (sc : (⟨1, ![N]⟩ : Shape).ShapeCasts ⟨2, ![N, 1]⟩)
    (bc : (⟨2, ![N, 1]⟩ : Shape).Broadcasts ⟨2, ![N, M]⟩) :
    broadcastTo ⟨2, ![N, M]⟩ (shapeCast ⟨2, ![N, 1]⟩ c sc) bc = ofRows fun i _ => valOf c i := by
  refine ext_ix2 fun i j => ?_
  have e1 := broadcastTo_apply (shapeCast ⟨2, ![N, 1]⟩ c sc) bc (ix2 i j) (ix2 i (0 : Fin 1)) (by
    intro a
    match a with
    | ⟨0, _⟩ =>
      show i.val = if N = 1 then 0 else i.val
      split
      · have := i.isLt; omega
      · rfl
    | ⟨1, _⟩ => rfl)
  have e2 := shapeCast_apply c sc (ix2 i (0 : Fin 1)) (ix1 i) (by
    rw [Shape.rowMajor_val_two, Shape.rowMajor_val_one]; show i.val = i.val * 1 + 0; omega)
  exact e1.trans e2

/-- A unit feature axis added to a one-axis array. -/
theorem kcol1_eq (c : FVec Ideal ⟨1, ![N]⟩ .f32) (sc : (⟨1, ![N]⟩ : Shape).ShapeCasts ⟨2, ![N, 1]⟩) :
    shapeCast ⟨2, ![N, 1]⟩ c sc = ofRows fun i _ => valOf c i := by
  refine ext_ix2 fun i j => ?_
  exact shapeCast_apply c sc (ix2 i j) (ix1 i) (by
    rw [Shape.rowMajor_val_two, Shape.rowMajor_val_one]; show i.val = i.val * 1 + j.val; have := j.isLt; omega)

/-- The host's way: two `broadcast_in_dim`s. -/
theorem hcol_eq (c : FVec Ideal ⟨1, ![N]⟩ .f32) (b1 : (⟨1, ![N]⟩ : Shape).BroadcastsInDim ⟨2, ![N, 1]⟩ ![0])
    (b2 : (⟨2, ![N, 1]⟩ : Shape).BroadcastsInDim ⟨2, ![N, M]⟩ ![0, 1]) :
    broadcastInDim ⟨2, ![N, M]⟩ ![0, 1] b2 (broadcastInDim ⟨2, ![N, 1]⟩ ![0] b1 c) = ofRows fun i _ => valOf c i := by
  refine ext_ix2 fun i j => ?_
  have e1 := broadcastInDim_apply ![0, 1] b2 (broadcastInDim ⟨2, ![N, 1]⟩ ![0] b1 c) (ix2 i j) (ix2 i (0 : Fin 1)) (by
    intro a
    match a with
    | ⟨0, _⟩ =>
      show i.val = if N = 1 then 0 else i.val
      split
      · have := i.isLt; omega
      · rfl
    | ⟨1, _⟩ => rfl)
  have e2 := broadcastInDim_apply ![0] b1 c (ix2 i (0 : Fin 1)) (ix1 i) (by
    intro a
    match a with
    | ⟨0, _⟩ =>
      show i.val = if N = 1 then 0 else i.val
      split
      · have := i.isLt; omega
      · rfl)
  exact e1.trans e2

end Idealize.ShloMosaic.Rows

end
-- ==== Proof.LibPlainAny.lean ====
/-
  A plain matrix product  a · b  (left operand N × K, right operand K × M, contracting the left operand's
  axis 1 with the right operand's axis 0) into a zero accumulator, read at (row, column) at the ideal values,
  WHATEVER THE OPERANDS' FLOAT FORMATS: at (i, j) it is the one sum  ∑ₖ a (i, k) · b (k, j).
  At the ideal values every float format is the extended reals, so a kernel that narrows its operands before
  the product computes the same sum; the statements hold for every size.
  Also: the squashing function `tanh` of an array read at an index.
-/
import proofs.«430588_j32220844654988_1_alg».proof.Proof.LibRows
import Idealize.ShloMosaic.Lib.ValueIdx
import Idealize.ShloMosaic.PureOps.Ideal.Laws

noncomputable section

namespace Idealize.ShloMosaic.Rows

open Idealize.ShloMosaic Idealize.ShloMosaic.ValueIdx

variable {N K M : ℕ}

/-- The contraction sum of a plain product re-indexed by the contracted coordinate, whatever the operands' float
    formats (at the ideal values every format is the extended reals). -/
theorem plain_sum_any {φ₁ φ₂ : FTy} (l : FVec Ideal ⟨2, ![N, K]⟩ φ₁) (r : FVec Ideal ⟨2, ![K, M]⟩ φ₂) (i : Fin N) (j : Fin M) :
    (∑ q : (DotDims.plain N K M).contr.Idx, l ((DotDims.plain N K M).lhsIdx (ix2 i j) q) * r ((DotDims.plain N K M).rhsIdx (ix2 i j) q))
      = ∑ k : Fin K, l (ix2 i k) * r (ix2 k j) := by
  rw [← Equiv.sum_comp (contrEquiv1 (DotDims.plain N K M) K rfl rfl).symm]
  refine Finset.sum_congr rfl fun k _ => ?_
  have hk := contrEquiv1_symm_val (DotDims.plain N K M) K rfl rfl k
  have el : (DotDims.plain N K M).lhsIdx (ix2 i j) ((contrEquiv1 (DotDims.plain N K M) K rfl rfl).symm k) = ix2 i k :=
    funext fun a => Fin.ext (by
      match a with
      | ⟨0, _⟩ => exact plain_lhs_0 _ _
      | ⟨1, _⟩ => exact (plain_lhs_1 _ _).trans hk)
  have er : (DotDims.plain N K M).rhsIdx (ix2 i j) ((contrEquiv1 (DotDims.plain N K M) K rfl rfl).symm k) = ix2 k j :=
    funext fun a => Fin.ext (by
      match a with
      | ⟨0, _⟩ => exact (plain_rhs_0 _ _).trans hk
      | ⟨1, _⟩ => exact plain_rhs_1 _ _)
  rw [el, er]

/-- A kernel's plain product into a zero accumulator at (i, j), whatever the operands' float formats. -/
theorem matmul_plain_any {φ₁ φ₂ : FTy} (l : FVec Ideal ⟨2, ![N, K]⟩ φ₁) (r : FVec Ideal ⟨2, ![K, M]⟩ φ₂) (i : Fin N) (j : Fin M) :
    matmul (DotDims.plain N K M) none l r (constant ⟨2, ![N, M]⟩ .f32 0x00000000#32) (ix2 i j)
      = ∑ k : Fin K, l (ix2 i k) * r (ix2 k j) := by
  show FloatOps.matmul (DotDims.plain N K M) none l r (constant ⟨2, ![N, M]⟩ .f32 0x00000000#32) (ix2 i j) = _
  rw [Ideal.matmul_constant_zero_apply]
  exact plain_sum_any l r i j

/-- The squashing function at an index. -/
theorem tanh_at {s : Shape} {φ : FTy} (x : FVec Ideal s φ) (i : s.Idx) : tanh x i = Ideal.tanh (x i) := rfl

end Idealize.ShloMosaic.Rows

end
-- ==== Proof.KernelBody.lean ====
/-
  The kernel body's stores, read as values.

  Each grid point handles one block of 8192 edges.  The body keeps a row of 1024 partial sums in a scratch buffer:
  at the first point it resets the row to zero; at every point it adds to the row the product of the block's row of
  edge values (1 × 8192) with the block's one-hot matrix (8192 × 1024: entry (k, j) is 1 when edge k's bucket word is
  the word of j, and 0 otherwise); at the last point it copies the row into the output buffer.

  First part, for any float values: what each control case leaves in the scratch, and in the output buffer at the
  last point, is the body's update term applied to the point's five input blocks and to the row the scratch held
  before (at the first point: the zero row just stored there).

  Second part, at the ideal values: the zero row is 0 at every lane, and the update term at lane j is the old entry
  plus  ∑ₖ decay k · hot (g k) j.  A matrix product into a zero accumulator is the plain sum over the contracted
  axis; a change of float format is the identity; the layout casts re-index without moving the row-major position;
  and comparing the column of bucket words, repeated along the lanes, with the lane counter is the one-hot weight.
-/
import proofs.«430588_j32220844654988_1_alg».proof.Proof.Gen.KernelIdeal.Frame
import proofs.«430588_j32220844654988_1_alg».proof.Proof.Spec
import proofs.«430588_j32220844654988_1_alg».proof.Proof.LibPlainAny
import Idealize.ShloMosaic.Lib.Pipeline.Value
import Idealize.ShloMosaic.Lib.ValueIdx
import Idealize.ShloMosaic.Lib.ValueLayout
import Idealize.ShloMosaic.Lib.Tactic

noncomputable section

namespace Cert.KernelIdeal.Body

open Cert.KernelIdeal Cert.KernelIdeal.Gen Idealize.ShloMosaic Idealize.ShloMosaic.ValueIdx
open Idealize.ShloMosaic.TcCoe Idealize.SL.Sem

variable {F : FTy → Type} [FloatOps F]

/-- Every load and store of the body starts at offset zero of its buffer. -/
theorem hz : (![0] : Fin 1 → Nat) = fun _ => 0 := funext fun a => by fin_cases a; rfl

/-! ## What each control case leaves, for any float values -/

/-- Away from the first and the last point the scratch ends at the update of what the point before left. -/
theorem scratch_B (c : Dev nD) (i : grid0.Coords) (arg1 : Memref sig .tc .vmem S8192 .f32) (harg1 : arg1.IsWhole) (arg2 : Memref sig .tc .vmem S8192 .f32) (harg2 : arg2.IsWhole) (arg3 : Memref sig .tc .vmem S8192 .f32) (harg3 : arg3.IsWhole) (arg4 : Memref sig .tc .vmem S8192 .f32) (harg4 : arg4.IsWhole) (arg5 : Memref sig .tc .vmem S8192 .i32) (harg5 : arg5.IsWhole) (arg6 : Memref sig .tc .vmem S1024 .f32) (harg6 : arg6.IsWhole) (arg7 : Memref sig .tc .vmem S1024 .f32) (harg7 : arg7.IsWhole) (hc0 : ¬cond0_0 i) (hc1 : ¬cond0_1 i)
    (x0 : Vec F S8192 .f32) (x1 : Vec F S8192 .f32) (x2 : Vec F S8192 .f32) (x3 : Vec F S8192 .f32) (x4 : Vec F S8192 .i32) (xs0 : Vec F S1024 .f32) :
    sout0_B_0 c i arg1 harg1 arg2 harg2 arg3 harg3 arg4 harg4 arg5 harg5 arg6 harg6 arg7 harg7 hc0 hc1 x0 x1 x2 x3 x4 xs0 = k0_pay2 x2 x0 x3 x1 x4 xs0 := by
  unfold sout0_B_0
  rw [View.read_writes_eq_canon _ _ _ (scover0_B_0 c i arg1 harg1 arg2 harg2 arg3 harg3 arg4 harg4 arg5 harg5 arg6 harg6 arg7 harg7 hc0 hc1 x0 x1 x2 x3 x4 xs0)]
  unfold kernelRun0_B
  dsimp only
  sl_unfold_words
  rw [View.canon_unit_zero hz]
  simp only [View.readAt_eq_ld, harg1.read_unread, harg2.read_unread, harg3.read_unread, harg4.read_unread, harg5.read_unread, harg7.read_unread, View.ld_unit_zero (S := S8192) hz, View.ld_unit_zero (S := S1024) hz, View.readCov_unit_zero (S := S1024) _ hz]

/-- At the first point the scratch is reset to the zero row, read back, and updated. -/
theorem scratch_A (c : Dev nD) (i : grid0.Coords) (arg1 : Memref sig .tc .vmem S8192 .f32) (harg1 : arg1.IsWhole) (arg2 : Memref sig .tc .vmem S8192 .f32) (harg2 : arg2.IsWhole) (arg3 : Memref sig .tc .vmem S8192 .f32) (harg3 : arg3.IsWhole) (arg4 : Memref sig .tc .vmem S8192 .f32) (harg4 : arg4.IsWhole) (arg5 : Memref sig .tc .vmem S8192 .i32) (harg5 : arg5.IsWhole) (arg6 : Memref sig .tc .vmem S1024 .f32) (harg6 : arg6.IsWhole) (arg7 : Memref sig .tc .vmem S1024 .f32) (harg7 : arg7.IsWhole) (hc0 : cond0_0 i) (hc1 : ¬cond0_1 i)
    (x0 : Vec F S8192 .f32) (x1 : Vec F S8192 .f32) (x2 : Vec F S8192 .f32) (x3 : Vec F S8192 .f32) (x4 : Vec F S8192 .i32) :
    sout0_A_0 c i arg1 harg1 arg2 harg2 arg3 harg3 arg4 harg4 arg5 harg5 arg6 harg6 arg7 harg7 hc0 hc1 x0 x1 x2 x3 x4 = k0_pay2 x2 x0 x3 x1 x4 (k0_pay1 (F := F)) := by
  unfold sout0_A_0
  rw [View.read_writes_eq_canon _ _ _ (scover0_A_0 c i arg1 harg1 arg2 harg2 arg3 harg3 arg4 harg4 arg5 harg5 arg6 harg6 arg7 harg7 hc0 hc1 x0 x1 x2 x3 x4)]
  unfold kernelRun0_A
  dsimp only
  sl_unfold_words
  rw [View.canon_cons_unit_zero (S := S1024) hz, View.readCov_unit_zero (S := S1024) _ hz]
  simp only [View.readAt_eq_ld, harg1.read_unread, harg2.read_unread, harg3.read_unread, harg4.read_unread, harg5.read_unread, harg7.read_unread, View.ld_unit_zero (S := S8192) hz, View.ld_unit_zero (S := S1024) hz, View.readCov_unit_zero (S := S1024) _ hz]

/-- At the last point the scratch is updated as at any other point. -/
theorem scratch_C (c : Dev nD) (i : grid0.Coords) (arg1 : Memref sig .tc .vmem S8192 .f32) (harg1 : arg1.IsWhole) (arg2 : Memref sig .tc .vmem S8192 .f32) (harg2 : arg2.IsWhole) (arg3 : Memref sig .tc .vmem S8192 .f32) (harg3 : arg3.IsWhole) (arg4 : Memref sig .tc .vmem S8192 .f32) (harg4 : arg4.IsWhole) (arg5 : Memref sig .tc .vmem S8192 .i32) (harg5 : arg5.IsWhole) (arg6 : Memref sig .tc .vmem S1024 .f32) (harg6 : arg6.IsWhole) (arg7 : Memref sig .tc .vmem S1024 .f32) (harg7 : arg7.IsWhole) (hc0 : ¬cond0_0 i) (hc1 : cond0_1 i)
    (x0 : Vec F S8192 .f32) (x1 : Vec F S8192 .f32) (x2 : Vec F S8192 .f32) (x3 : Vec F S8192 .f32) (x4 : Vec F S8192 .i32) (xs0 : Vec F S1024 .f32) :
    sout0_C_0 c i arg1 harg1 arg2 harg2 arg3 harg3 arg4 harg4 arg5 harg5 arg6 harg6 arg7 harg7 hc0 hc1 x0 x1 x2 x3 x4 xs0 = k0_pay2 x2 x0 x3 x1 x4 xs0 := by
  unfold sout0_C_0
  rw [View.read_writes_eq_canon _ _ _ (scover0_C_0 c i arg1 harg1 arg2 harg2 arg3 harg3 arg4 harg4 arg5 harg5 arg6 harg6 arg7 harg7 hc0 hc1 x0 x1 x2 x3 x4 xs0)]
  unfold kernelRun0_C
  dsimp only
  sl_unfold_words
  rw [View.canon_unit_zero hz]
  simp only [View.readAt_eq_ld, harg1.read_unread, harg2.read_unread, harg3.read_unread, harg4.read_unread, harg5.read_unread, harg7.read_unread, View.ld_unit_zero (S := S8192) hz, View.ld_unit_zero (S := S1024) hz, View.readCov_unit_zero (S := S1024) _ hz]

/-- At the last point the output buffer receives the scratch as just updated. -/
theorem out_C (c : Dev nD) (i : grid0.Coords) (arg1 : Memref sig .tc .vmem S8192 .f32) (harg1 : arg1.IsWhole) (arg2 : Memref sig .tc .vmem S8192 .f32) (harg2 : arg2.IsWhole) (arg3 : Memref sig .tc .vmem S8192 .f32) (harg3 : arg3.IsWhole) (arg4 : Memref sig .tc .vmem S8192 .f32) (harg4 : arg4.IsWhole) (arg5 : Memref sig .tc .vmem S8192 .i32) (harg5 : arg5.IsWhole) (arg6 : Memref sig .tc .vmem S1024 .f32) (harg6 : arg6.IsWhole) (arg7 : Memref sig .tc .vmem S1024 .f32) (harg7 : arg7.IsWhole) (hc0 : ¬cond0_0 i) (hc1 : cond0_1 i)
    (x0 : Vec F S8192 .f32) (x1 : Vec F S8192 .f32) (x2 : Vec F S8192 .f32) (x3 : Vec F S8192 .f32) (x4 : Vec F S8192 .i32) (xs0 : Vec F S1024 .f32) :
    out0_C_5 c i arg1 harg1 arg2 harg2 arg3 harg3 arg4 harg4 arg5 harg5 arg6 harg6 arg7 harg7 hc0 hc1 x0 x1 x2 x3 x4 xs0 = k0_pay2 x2 x0 x3 x1 x4 xs0 := by
  unfold out0_C_5
  rw [View.read_writes_eq_canon _ _ _ (cover0_C_5 c i arg1 harg1 arg2 harg2 arg3 harg3 arg4 harg4 arg5 harg5 arg6 harg6 arg7 harg7 hc0 hc1 x0 x1 x2 x3 x4 xs0)]
  unfold kernelRun0_C
  dsimp only
  sl_unfold_words
  rw [View.canon_unit_zero hz]
  simp only [View.readAt_eq_ld, harg1.read_unread, harg2.read_unread, harg3.read_unread, harg4.read_unread, harg5.read_unread, harg7.read_unread, View.ld_unit_zero (S := S8192) hz, View.ld_unit_zero (S := S1024) hz, View.readCov_unit_zero (S := S1024) _ hz]

/-! ## The stored rows read at an index, at the ideal values -/

/-- The reset row is zero at every lane. -/
theorem pay1_apply (j : Fin 1024) : k0_pay1 (F := Ideal) (ix1 j) = 0 := by
  unfold k0_pay1
  simp only [shapeCast_self]
  show Ideal.ofBits .f32 0x00000000#32 = 0
  exact Ideal.ofBits_zero_f32

/-- The bucket words, laid out as a column and repeated along the 1024 lanes, read at (k, j): edge k's word. -/
theorem column_at (g : IVec S8192 32) (k : Fin 8192) (j : Fin 1024) :
    broadcastTo S8192x1024 (shapeCast S8192x1 g shapeCasts_S8192_S8192x1) broadcasts_S8192x1_S8192x1024 (ix2 k j)
      = g (ix1 k) := by
  refine (broadcastTo_apply _ _ (ix2 k j) (ix2 k (0 : Fin 1)) fun a => ?_).trans ?_
  · match a with
    | ⟨0, _⟩ => rfl
    | ⟨1, _⟩ => rfl
  · refine shapeCast_apply g _ _ _ ?_
    rw [Shape.rowMajor_val_two, Shape.rowMajor_val_one]
    show k.val = k.val * 1 + 0
    omega

/-- The lane counter read at (k, j) is the word of j. -/
theorem lane_at (k : Fin 8192) (j : Fin 1024) :
    iota .tc S8192x1024 32 [1] iota_S8192x1024_d1_w32 (ix2 k j) = BitVec.ofNat 32 j.val := by
  show BitVec.ofNat 32 (0 * 1024 + j.val) = _
  rw [Nat.zero_mul, Nat.zero_add]

/-- The one-hot matrix read at (k, j): the weight of bucket j for edge k's word. -/
theorem onehot_at (g : IVec S8192 32) (k : Fin 8192) (j : Fin 1024) :
    (truncf .bf16 (sitofp .f32 (extui 32 (cmpi .eq
        (broadcastTo S8192x1024 (shapeCast S8192x1 g shapeCasts_S8192_S8192x1) broadcasts_S8192x1_S8192x1024)
        (iota .tc S8192x1024 32 [1] iota_S8192x1024_d1_w32)) natLt_1_32)) bitsLt_bf16_f32 : FVec Ideal S8192x1024 .bf16) (ix2 k j)
      = EdgeDecay.hot (g (ix1 k)) j := by
  show ((((IntOp.cmpi .eq
      (broadcastTo S8192x1024 (shapeCast S8192x1 g shapeCasts_S8192_S8192x1) broadcasts_S8192x1_S8192x1024 (ix2 k j))
      (iota .tc S8192x1024 32 [1] iota_S8192x1024_d1_w32 (ix2 k j))).setWidth 32).toInt : ℝ) : EReal) = _
  rw [column_at, lane_at]
  rfl

/-- The row of edge values, laid out as a 1 × 8192 matrix, read at (0, k): edge k's value. -/
theorem row_at (v3 v5 v8 v10 : Vec Ideal S8192 .f32) (k : Fin 8192) :
    (shapeCast S1x8192 (truncf .bf16 (exp (mulf (broadcast S8192 (Scalar.ofBits .f32 0xBF800000#32))
        (sqrt (addf (mulf (subf v3 v5) (subf v3 v5)) (mulf (subf v8 v10) (subf v8 v10)))))) bitsLt_bf16_f32)
        shapeCasts_S8192_S1x8192 : FVec Ideal S1x8192 .bf16) (ix2 (0 : Fin 1) k)
      = EdgeDecay.decay (v5 (ix1 k)) (v10 (ix1 k)) (v3 (ix1 k)) (v8 (ix1 k)) :=
  (shapeCast_a_1a_apply _ _ (0 : Fin 1) k).trans rfl

/-- The updated scratch row at lane j: what the scratch held there plus the block's contribution to bucket j,
    the edge values weighted by their one-hot weights (a product of the row of values with the one-hot matrix). -/
theorem pay2_apply (v3 v5 v8 v10 : Vec Ideal S8192 .f32) (v20 : Vec Ideal S8192 .i32) (v32 : Vec Ideal S1024 .f32) (j : Fin 1024) :
    k0_pay2 (F := Ideal) v3 v5 v8 v10 v20 v32 (ix1 j)
      = v32 (ix1 j) + ∑ k : Fin 8192, EdgeDecay.decay (v5 (ix1 k)) (v10 (ix1 k)) (v3 (ix1 k)) (v8 (ix1 k)) * EdgeDecay.hot (v20 (ix1 k)) j := by
  unfold k0_pay2
  simp only [shapeCast_self]
  refine congrArg (v32 (ix1 j) + ·) ?_
  refine (shapeCast_1a_a_apply _ _ j).trans ?_
  refine (Rows.matmul_plain_any _ _ (0 : Fin 1) j).trans ?_
  refine Finset.sum_congr rfl fun k _ => ?_
  exact congrArg₂ (· * ·) (row_at v3 v5 v8 v10 k) (onehot_at v20 k j)

end Cert.KernelIdeal.Body

end
-- ==== Proof.KernelFold.lean ====
/-
  What the pipelined region of the idealized kernel leaves in its result array.

  The region visits 1024 grid points; point t sees block t (8192 consecutive entries) of each of its five input arrays.
  A scratch buffer carries the bucket totals from point to point: the first point clears it, every point adds to entry j
  the sum over its block of  decay · hot,  and the last point copies the scratch into the one block of the result
  array, which is the whole array.  So after point n the scratch holds the running total over the blocks 0 … n
  (an induction on n over the three cases of the body), and the result array ends holding the running total after the
  last block.
-/
import proofs.«430588_j32220844654988_1_alg».proof.Proof.Gen.KernelIdeal.Frame
import proofs.«430588_j32220844654988_1_alg».proof.Proof.Spec
import proofs.«430588_j32220844654988_1_alg».proof.Proof.KernelBody
import Idealize.ShloMosaic.Lib.Pipeline.Value
import Idealize.ShloMosaic.Lib.ValueIdx

noncomputable section

namespace Cert.KernelIdeal.RegionValue

open Cert.KernelIdeal Cert.KernelIdeal.Gen Idealize.ShloMosaic Idealize.ShloMosaic.TcCoe Idealize.SL.Sem
open Idealize.ShloMosaic.ValueIdx
open Idealize.ShloMosaic.Pipeline (Dat)

variable (m : (ℓ : Loc nD τ sig) → Buf (Elt Ideal) ℓ) (ρ : Dev nD → PrngReg)

/-! ## The five input arrays and their blocks -/

/-- The region's input arrays as it finds them: start x, start y, end x, end y, bucket words. -/
abbrev sxArr (c : Dev nD) : Vec Ideal S8388608 .f32 := V m c main_v19
abbrev syArr (c : Dev nD) : Vec Ideal S8388608 .f32 := V m c main_v21
abbrev exArr (c : Dev nD) : Vec Ideal S8388608 .f32 := V m c main_v23
abbrev eyArr (c : Dev nD) : Vec Ideal S8388608 .f32 := V m c main_v25
abbrev gArr (c : Dev nD) : Vec Ideal S8388608 .i32 := V m c main_v32

/-- Edge e's value and bucket word, from those arrays. -/
def valOf (c : Dev nD) (e : Fin 8388608) : EReal :=
  EdgeDecay.decay (sxArr m c (ix1 e)) (syArr m c (ix1 e)) (exArr m c (ix1 e)) (eyArr m c (ix1 e))
def wordOf (c : Dev nD) (e : Fin 8388608) : BitVec 32 := gArr m c (ix1 e)

/-- The blocks point t sees. -/
abbrev blk0 (c : Dev nD) (t : Fin cfg0.N) : Vec Ideal S8192 .f32 := iblk m c 0 t
abbrev blk1 (c : Dev nD) (t : Fin cfg0.N) : Vec Ideal S8192 .f32 := iblk m c 1 t
abbrev blk2 (c : Dev nD) (t : Fin cfg0.N) : Vec Ideal S8192 .f32 := iblk m c 2 t
abbrev blk3 (c : Dev nD) (t : Fin cfg0.N) : Vec Ideal S8192 .f32 := iblk m c 3 t
abbrev blk4 (c : Dev nD) (t : Fin cfg0.N) : Vec Ideal S8192 .i32 := iblk m c 4 t

/-- A grid point as a block number. -/
def pt (t : Fin cfg0.N) : Fin 1024 := ⟨t.val, lt_of_lt_of_eq t.isLt N_0⟩

/-- Every input window's block index at point t is t. -/
theorem idx0 : ∀ t : Fin cfg0.N, win0_0.index t 0 = t.val := (by decide +kernel : ∀ t : Fin grid0.N, win0_0.index t 0 = t.val)
theorem idx1 : ∀ t : Fin cfg0.N, win0_1.index t 0 = t.val := (by decide +kernel : ∀ t : Fin grid0.N, win0_1.index t 0 = t.val)
theorem idx2 : ∀ t : Fin cfg0.N, win0_2.index t 0 = t.val := (by decide +kernel : ∀ t : Fin grid0.N, win0_2.index t 0 = t.val)
theorem idx3 : ∀ t : Fin cfg0.N, win0_3.index t 0 = t.val := (by decide +kernel : ∀ t : Fin grid0.N, win0_3.index t 0 = t.val)
theorem idx4 : ∀ t : Fin cfg0.N, win0_4.index t 0 = t.val := (by decide +kernel : ∀ t : Fin grid0.N, win0_4.index t 0 = t.val)

/-- Entry k of block t is entry 8192·t + k of the array. -/
theorem blk0_apply (c : Dev nD) (t : Fin cfg0.N) (k : Fin 8192) :
    blk0 m c t (ix1 k) = sxArr m c (ix1 (EdgeDecay.edgeOf (pt t) k)) := by
  unfold blk0 iblk
  rw [View.read_apply]
  show V m c main_v19 _ = V m c main_v19 _
  congr 1
  funext a
  apply Fin.ext
  match a with
  | ⟨0, _⟩ => show win0_0.index t 0 * 8192 + 1 * k.val = 8192 * t.val + k.val; rw [idx0 t]; omega
theorem blk1_apply (c : Dev nD) (t : Fin cfg0.N) (k : Fin 8192) :
    blk1 m c t (ix1 k) = syArr m c (ix1 (EdgeDecay.edgeOf (pt t) k)) := by
  unfold blk1 iblk
  rw [View.read_apply]
  show V m c main_v21 _ = V m c main_v21 _
  congr 1
  funext a
  apply Fin.ext
  match a with
  | ⟨0, _⟩ => show win0_1.index t 0 * 8192 + 1 * k.val = 8192 * t.val + k.val; rw [idx1 t]; omega
theorem blk2_apply (c : Dev nD) (t : Fin cfg0.N) (k : Fin 8192) :
    blk2 m c t (ix1 k) = exArr m c (ix1 (EdgeDecay.edgeOf (pt t) k)) := by
  unfold blk2 iblk
  rw [View.read_apply]
  show V m c main_v23 _ = V m c main_v23 _
  congr 1
  funext a
  apply Fin.ext
  match a with
  | ⟨0, _⟩ => show win0_2.index t 0 * 8192 + 1 * k.val = 8192 * t.val + k.val; rw [idx2 t]; omega
theorem blk3_apply (c : Dev nD) (t : Fin cfg0.N) (k : Fin 8192) :
    blk3 m c t (ix1 k) = eyArr m c (ix1 (EdgeDecay.edgeOf (pt t) k)) := by
  unfold blk3 iblk
  rw [View.read_apply]
  show V m c main_v25 _ = V m c main_v25 _
  congr 1
  funext a
  apply Fin.ext
  match a with
  | ⟨0, _⟩ => show win0_3.index t 0 * 8192 + 1 * k.val = 8192 * t.val + k.val; rw [idx3 t]; omega
theorem blk4_apply (c : Dev nD) (t : Fin cfg0.N) (k : Fin 8192) :
    blk4 m c t (ix1 k) = gArr m c (ix1 (EdgeDecay.edgeOf (pt t) k)) := by
  unfold blk4 iblk
  rw [View.read_apply]
  show V m c main_v32 _ = V m c main_v32 _
  congr 1
  funext a
  apply Fin.ext
  match a with
  | ⟨0, _⟩ => show win0_4.index t 0 * 8192 + 1 * k.val = 8192 * t.val + k.val; rw [idx4 t]; omega

/-- What point t adds to bucket j, over its blocks, is block t's part of the bucket sum. -/
theorem block_sum (c : Dev nD) (t : Fin cfg0.N) (j : Fin 1024) :
    (∑ k : Fin 8192, EdgeDecay.decay (blk0 m c t (ix1 k)) (blk1 m c t (ix1 k)) (blk2 m c t (ix1 k)) (blk3 m c t (ix1 k))
        * EdgeDecay.hot (blk4 m c t (ix1 k)) j)
      = EdgeDecay.blockPart (valOf m c) (wordOf m c) j (pt t) := by
  unfold EdgeDecay.blockPart valOf wordOf
  refine Finset.sum_congr rfl fun k _ => ?_
  rw [blk0_apply, blk1_apply, blk2_apply, blk3_apply, blk4_apply]

/-! ## The scratch after each point -/

/-- After point n the scratch holds, at entry j, the running total of bucket j over the blocks 0 … n. -/
theorem scratch_eq (c : Dev nD) : ∀ (n : ℕ) (h : n < cfg0.N) (j : Fin 1024),
    (outsAt0 m c n h).2 (ix1 j) = EdgeDecay.runningTotal (valOf m c) (wordOf m c) j n := by
  intro n
  induction n with
  | zero =>
    intro h j
    rw [show outsAt0 m c 0 h = _ from outsAt0_A m c ⟨0, h⟩ (Nat.zero_mod _) (by dsimp only; omega)]
    dsimp only
    refine (congrFun (Body.scratch_A c (grid0.coords ⟨0, h⟩) (ms0_0 ⟨0, h⟩) (hs0_0 ⟨0, h⟩) (ms0_1 ⟨0, h⟩) (hs0_1 ⟨0, h⟩) (ms0_2 ⟨0, h⟩) (hs0_2 ⟨0, h⟩)
      (ms0_3 ⟨0, h⟩) (hs0_3 ⟨0, h⟩) (ms0_4 ⟨0, h⟩) (hs0_4 ⟨0, h⟩) (ms0_5 ⟨0, h⟩) (hs0_5 ⟨0, h⟩) scM0_0 (Memref.isWhole_whole _) _ _
      (blk0 m c ⟨0, h⟩) (blk1 m c ⟨0, h⟩) (blk2 m c ⟨0, h⟩) (blk3 m c ⟨0, h⟩) (blk4 m c ⟨0, h⟩)) (ix1 j)).trans ?_
    refine (Body.pay2_apply (blk2 m c ⟨0, h⟩) (blk0 m c ⟨0, h⟩) (blk3 m c ⟨0, h⟩) (blk1 m c ⟨0, h⟩) (blk4 m c ⟨0, h⟩) (k0_pay1 (F := Ideal)) j).trans ?_
    rw [Body.pay1_apply, zero_add, block_sum, EdgeDecay.runningTotal_zero]
    rfl
  | succ n ih =>
    intro h j
    have hN : n + 1 < 1024 := lt_of_lt_of_eq h N_0
    have h0 : ¬(⟨n + 1, h⟩ : Fin cfg0.N).val % 1024 = 0 := by dsimp only; omega
    have hstep : ∀ xs : Vec Ideal S1024 .f32, xs = (outsAt0 m c n (Nat.lt_of_succ_lt h)).2 →
        k0_pay2 (F := Ideal) (blk2 m c ⟨n + 1, h⟩) (blk0 m c ⟨n + 1, h⟩) (blk3 m c ⟨n + 1, h⟩) (blk1 m c ⟨n + 1, h⟩) (blk4 m c ⟨n + 1, h⟩) xs (ix1 j)
          = EdgeDecay.runningTotal (valOf m c) (wordOf m c) j (n + 1) := by
      intro xs hxs
      refine (Body.pay2_apply (blk2 m c ⟨n + 1, h⟩) (blk0 m c ⟨n + 1, h⟩) (blk3 m c ⟨n + 1, h⟩) (blk1 m c ⟨n + 1, h⟩) (blk4 m c ⟨n + 1, h⟩) xs j).trans ?_
      rw [hxs, ih (Nat.lt_of_succ_lt h) j, block_sum, EdgeDecay.runningTotal_succ _ _ _ n hN]
      rfl
    by_cases h1 : (⟨n + 1, h⟩ : Fin cfg0.N).val % 1024 = 1023
    · rw [show outsAt0 m c (n + 1) h = _ from outsAt0_C m c ⟨n + 1, h⟩ h0 h1]
      dsimp only
      refine (congrFun (Body.scratch_C c (grid0.coords ⟨n + 1, h⟩) (ms0_0 ⟨n + 1, h⟩) (hs0_0 ⟨n + 1, h⟩) (ms0_1 ⟨n + 1, h⟩) (hs0_1 ⟨n + 1, h⟩) (ms0_2 ⟨n + 1, h⟩) (hs0_2 ⟨n + 1, h⟩)
        (ms0_3 ⟨n + 1, h⟩) (hs0_3 ⟨n + 1, h⟩) (ms0_4 ⟨n + 1, h⟩) (hs0_4 ⟨n + 1, h⟩) (ms0_5 ⟨n + 1, h⟩) (hs0_5 ⟨n + 1, h⟩) scM0_0 (Memref.isWhole_whole _) _ _
        (blk0 m c ⟨n + 1, h⟩) (blk1 m c ⟨n + 1, h⟩) (blk2 m c ⟨n + 1, h⟩) (blk3 m c ⟨n + 1, h⟩) (blk4 m c ⟨n + 1, h⟩) _) (ix1 j)).trans ?_
      exact hstep _ rfl
    · rw [show outsAt0 m c (n + 1) h = _ from outsAt0_B m c ⟨n + 1, h⟩ h0 h1]
      dsimp only
      refine (congrFun (Body.scratch_B c (grid0.coords ⟨n + 1, h⟩) (ms0_0 ⟨n + 1, h⟩) (hs0_0 ⟨n + 1, h⟩) (ms0_1 ⟨n + 1, h⟩) (hs0_1 ⟨n + 1, h⟩) (ms0_2 ⟨n + 1, h⟩) (hs0_2 ⟨n + 1, h⟩)
        (ms0_3 ⟨n + 1, h⟩) (hs0_3 ⟨n + 1, h⟩) (ms0_4 ⟨n + 1, h⟩) (hs0_4 ⟨n + 1, h⟩) (ms0_5 ⟨n + 1, h⟩) (hs0_5 ⟨n + 1, h⟩) scM0_0 (Memref.isWhole_whole _) _ _
        (blk0 m c ⟨n + 1, h⟩) (blk1 m c ⟨n + 1, h⟩) (blk2 m c ⟨n + 1, h⟩) (blk3 m c ⟨n + 1, h⟩) (blk4 m c ⟨n + 1, h⟩) _) (ix1 j)).trans ?_
      exact hstep _ rfl

end Cert.KernelIdeal.RegionValue

end
-- ==== Proof.KernelHost.lean ====
/-
  The arrays the pipelined region of the idealized kernel reads, as terms of the argument arrays.

  Before the region the program gathers, for every edge, the row of its start node and the row of its end node from the
  table of positions, and the bucket word of its start node; it then cuts the two arrays of rows into their x and y
  columns.  So four of the region's five input arrays are columns of two gathered arrays, and the fifth is the gathered
  bucket words.  Reading a column at edge e is reading the gathered array at (e, 0) or (e, 1).
-/
import proofs.«430588_j32220844654988_1_alg».proof.Proof.Gen.KernelIdeal.Frame
import proofs.«430588_j32220844654988_1_alg».proof.Proof.Spec
import Idealize.ShloMosaic.Lib.Pipeline.Value
import Idealize.ShloMosaic.Lib.StableHlo.Run
import Idealize.ShloMosaic.Lib.ValueIdx

noncomputable section

namespace Cert.KernelIdeal.HostValue

open Cert.KernelIdeal Cert.KernelIdeal.Gen Idealize.ShloMosaic Idealize.ShloMosaic.TcCoe Idealize.SL.Sem
open Idealize.ShloMosaic.ValueIdx

variable {F : FTy → Type} [FloatOps F]

/-- Row 0 of the edge list (the start nodes) and row 1 (the end nodes), each as a list of node numbers. -/
def edgeRow0 (x1 : IVec S2x8388608 32) : IVec S8388608 32 :=
  shapeCast S8388608 (extractStridedSlice S1x8388608 ![0, 0] x1 slices_S2x8388608_S1x8388608_0_0) shapeCasts_S1x8388608_S8388608
def edgeRow1 (x1 : IVec S2x8388608 32) : IVec S8388608 32 :=
  shapeCast S8388608 (extractStridedSlice S1x8388608 ![1, 0] x1 slices_S2x8388608_S1x8388608_1_0) shapeCasts_S1x8388608_S8388608

/-- A negative node number counts from the end of the table: 131072 is added to it; the result as a column. -/
def wrapCol (i : IVec S8388608 32) : IVec S8388608x1 32 :=
  broadcastInDim S8388608x1 ![0] bcast_S8388608_S8388608x1_0
    (select (cmpi .slt i (broadcastInDim S8388608 ![] bcast_S_S8388608 (constantI S_ 32 0#32)))
      (addi i (broadcastInDim S8388608 ![] bcast_S_S8388608 (constantI S_ 32 131072#32))) i)

/-- The start points' rows, the end points' rows, and the start nodes' bucket words, one per edge. -/
def startRows (x0 : FVec F S131072x2 .f32) (x1 : IVec S2x8388608 32) : FVec F S8388608x2 .f32 :=
  Host.gather gather_S131072x2_S8388608x1_S8388608x2_1_0_n_n_0_1_12 x0 (wrapCol (edgeRow0 x1))
def endRows (x0 : FVec F S131072x2 .f32) (x1 : IVec S2x8388608 32) : FVec F S8388608x2 .f32 :=
  Host.gather gather_S131072x2_S8388608x1_S8388608x2_1_0_n_n_0_1_12 x0 (wrapCol (edgeRow1 x1))
def graphIds (x2 : IVec S131072 32) (x1 : IVec S2x8388608 32) : IVec S8388608 32 :=
  Host.gather gather_S131072_S8388608x1_S8388608_n_0_n_n_0_1_1 x2 (wrapCol (edgeRow0 x1))

/-- The x column and the y column of an array of rows, each as a list. -/
def colX (A : FVec F S8388608x2 .f32) : FVec F S8388608 .f32 :=
  shapeCast S8388608 (extractStridedSlice S8388608x1 ![0, 0] A slices_S8388608x2_S8388608x1_0_0) shapeCasts_S8388608x1_S8388608
def colY (A : FVec F S8388608x2 .f32) : FVec F S8388608 .f32 :=
  shapeCast S8388608 (extractStridedSlice S8388608x1 ![0, 1] A slices_S8388608x2_S8388608x1_0_1) shapeCasts_S8388608x1_S8388608

/-- Entry e of the x column is the array's entry (e, 0). -/
theorem colX_apply (A : FVec F S8388608x2 .f32) (e : Fin 8388608) : colX A (ix1 e) = A (ix2 e 0) := by
  unfold colX
  rw [shapeCast_apply (extractStridedSlice S8388608x1 ![0, 0] A slices_S8388608x2_S8388608x1_0_0) shapeCasts_S8388608x1_S8388608
    (ix1 e) (ix2 e (0 : Fin 1))
    (by rewrite [Shape.rowMajor_val_two, Shape.rowMajor_val_one]; show e.val * 1 + 0 = e.val; omega)]
  exact extractStridedSlice_apply ![0, 0] A slices_S8388608x2_S8388608x1_0_0 (ix2 e (0 : Fin 1)) (ix2 e (0 : Fin 2)) (fun a => match a with
    | ⟨0, _⟩ => by show e.val = 0 + e.val; omega
    | ⟨1, _⟩ => by show 0 = 0 + 0; omega)

/-- Entry e of the y column is the array's entry (e, 1). -/
theorem colY_apply (A : FVec F S8388608x2 .f32) (e : Fin 8388608) : colY A (ix1 e) = A (ix2 e 1) := by
  unfold colY
  rw [shapeCast_apply (extractStridedSlice S8388608x1 ![0, 1] A slices_S8388608x2_S8388608x1_0_1) shapeCasts_S8388608x1_S8388608
    (ix1 e) (ix2 e (0 : Fin 1))
    (by rewrite [Shape.rowMajor_val_two, Shape.rowMajor_val_one]; show e.val * 1 + 0 = e.val; omega)]
  exact extractStridedSlice_apply ![0, 1] A slices_S8388608x2_S8388608x1_0_1 (ix2 e (0 : Fin 1)) (ix2 e (1 : Fin 2)) (fun a => match a with
    | ⟨0, _⟩ => by show e.val = 0 + e.val; omega
    | ⟨1, _⟩ => by show 1 = 1 + 0; omega)

variable (m : (ℓ : Loc nD τ sig) → Buf (Elt F) ℓ)

set_option maxHeartbeats 4000000 in
/-- The region's first input array: the x column of the start points' rows. -/
theorem V_v19 (c : Dev nD) : (V m c main_v19 : S8388608.Idx → F .f32)
    = colX (startRows (m ((c : Thread nD τ).loc main_arg0)) (m ((c : Thread nD τ).loc main_arg1))) := by
  show StableHlo.after hostOps0 (fun b => m (c, b)) (Proc.devRef .tc main_v19) = _
  after_results
  rfl

set_option maxHeartbeats 4000000 in
/-- The second: their y column. -/
theorem V_v21 (c : Dev nD) : (V m c main_v21 : S8388608.Idx → F .f32)
    = colY (startRows (m ((c : Thread nD τ).loc main_arg0)) (m ((c : Thread nD τ).loc main_arg1))) := by
  show StableHlo.after hostOps0 (fun b => m (c, b)) (Proc.devRef .tc main_v21) = _
  after_results
  rfl

set_option maxHeartbeats 4000000 in
/-- The third: the x column of the end points' rows. -/
theorem V_v23 (c : Dev nD) : (V m c main_v23 : S8388608.Idx → F .f32)
    = colX (endRows (m ((c : Thread nD τ).loc main_arg0)) (m ((c : Thread nD τ).loc main_arg1))) := by
  show StableHlo.after hostOps0 (fun b => m (c, b)) (Proc.devRef .tc main_v23) = _
  after_results
  rfl

set_option maxHeartbeats 4000000 in
/-- The fourth: their y column. -/
theorem V_v25 (c : Dev nD) : (V m c main_v25 : S8388608.Idx → F .f32)
    = colY (endRows (m ((c : Thread nD τ).loc main_arg0)) (m ((c : Thread nD τ).loc main_arg1))) := by
  show StableHlo.after hostOps0 (fun b => m (c, b)) (Proc.devRef .tc main_v25) = _
  after_results
  rfl

set_option maxHeartbeats 4000000 in
/-- The fifth: the start nodes' bucket words. -/
theorem V_v32 (c : Dev nD) : (V m c main_v32 : S8388608.Idx → BitVec 32)
    = graphIds (m ((c : Thread nD τ).loc main_arg2)) (m ((c : Thread nD τ).loc main_arg1)) := by
  show StableHlo.after hostOps0 (fun b => m (c, b)) (Proc.devRef .tc main_v32) = _
  after_results
  rfl

end Cert.KernelIdeal.HostValue

end
-- ==== Proof.KernelResult.lean ====
/-
  The idealized kernel's run, read: its result is the mean of the bucket sums of the three gathered arrays.

  The last grid point copies the scratch, which by then holds the running totals over all 1024 blocks, into the one
  block of the region's result array; that block is the whole array, so the array ends holding, at entry j, the
  conditional sum over all edges of the values whose bucket word, read signed, is j.  The values are the decay of the
  gathered rows' coordinates and the words are the gathered bucket words, because the region's inputs are columns of
  the gathered arrays.  After the region the program sums the 1024 entries from zero and divides by 1024.
-/
import proofs.«430588_j32220844654988_1_alg».proof.Proof.KernelFold
import proofs.«430588_j32220844654988_1_alg».proof.Proof.KernelHost
import Idealize.ShloMosaic.Lib.Pipeline.Value
import Idealize.ShloMosaic.Lib.StableHlo.Run
import Idealize.ShloMosaic.Lib.ValueIdx

noncomputable section

namespace Cert.KernelIdeal.RegionValue

open Cert.KernelIdeal Cert.KernelIdeal.Gen Idealize.ShloMosaic Idealize.ShloMosaic.TcCoe Idealize.SL.Sem
open Idealize.ShloMosaic.ValueIdx
open Idealize.ShloMosaic.Pipeline (Dat)
open Cert.KernelIdeal.HostValue

variable (m : (ℓ : Loc nD τ sig) → Buf (Elt Ideal) ℓ) (ρ : Dev nD → PrngReg)

/-- The sum of 1024 entries from zero, divided by 1024. -/
def meanOf (x : FVec Ideal S1024 .f32) : FVec Ideal S_ .f32 :=
  Host.divf (Host.reduceAdd x (constant (F := Ideal) S_ .f32 0x00000000#32) reducesTo_S1024_S_d0 h_S_) (constant (F := Ideal) S_ .f32 0x44800000#32)

/-- The result array's final contents: the running totals after the last block. -/
def result (c : Dev nD) : Buf (Elt Ideal) ((c : Thread nD τ).loc main_v33) :=
  fun j => EdgeDecay.runningTotal (valOf m c) (wordOf m c) (j 0) 1023

/-- The last grid point. -/
abbrev tLast : Fin cfg0.N := ⟨1023, by rw [show cfg0.N = 1024 from N_0]; decide⟩

/-- At the last point the output buffer and the scratch end with the same contents. -/
theorem out_eq_scratch (c : Dev nD) (t : Fin cfg0.N) (h0 : ¬t.val % 1024 = 0) (h1 : t.val % 1024 = 1023) :
    (outsAt0 m c t.val t.isLt).1 = (outsAt0 m c t.val t.isLt).2 := by
  rw [outsAt0_C m c t h0 h1]
  dsimp only
  exact (Body.out_C c (grid0.coords t) (ms0_0 t) (hs0_0 t) (ms0_1 t) (hs0_1 t) (ms0_2 t) (hs0_2 t) (ms0_3 t) (hs0_3 t) (ms0_4 t) (hs0_4 t)
      (ms0_5 t) (hs0_5 t) scM0_0 (Memref.isWhole_whole _) _ _ (blk0 m c t) (blk1 m c t) (blk2 m c t) (blk3 m c t) (blk4 m c t) _).trans
    (Body.scratch_C c (grid0.coords t) (ms0_0 t) (hs0_0 t) (ms0_1 t) (hs0_1 t) (ms0_2 t) (hs0_2 t) (ms0_3 t) (hs0_3 t) (ms0_4 t) (hs0_4 t)
      (ms0_5 t) (hs0_5 t) scM0_0 (Memref.isWhole_whole _) _ _ (blk0 m c t) (blk1 m c t) (blk2 m c t) (blk3 m c t) (blk4 m c t) _).symm

/-- After the last point the scratch holds the final contents. -/
theorem scratch_last (c : Dev nD) : (outsAt0 m c tLast.val tLast.isLt).2 = result m c := by
  funext j
  obtain ⟨r, rfl⟩ : ∃ r : Fin 1024, j = ix1 r := ⟨j 0, eq_ix1 j⟩
  exact scratch_eq m c 1023 tLast.isLt r

/-- The one write-back, at the last point, writes the final contents: the block is the whole array. -/
theorem flushed_eq (c : Dev nD) (t : Fin cfg0.N) (hf : (cfg0.win 5).flush t = true) :
    (dats m 0 c).flushed 5 t = ((cfg0.win 5).blk t).view.read (Elt Ideal) (result m c) := by
  have hN : t.val < 1024 := lt_of_lt_of_eq t.isLt N_0
  have h1 : t.val % 1024 = 1023 := (flush0_5 t).mp hf
  obtain rfl : t = tLast := Fin.ext (by show t.val = 1023; omega)
  show (cfg0.win 5).cut (grid0.coords tLast) ((dats m 0 c).after 5 tLast) = _
  rw [after0_5, out_eq_scratch m c tLast (by decide) (by decide), scratch_last]
  have hz' : (fun a => win0_5.index tLast a * main_v33.ty.shape.size a) = fun _ => 0 := funext fun a => by fin_cases a <;> decide
  exact (Memref.read_access_unit_zero (Elt Ideal) main_v33 hz' (fun a => by rw [congrFun hz' a]; simp) (result m c)).symm

/-- So the result array ends holding the final contents. -/
theorem final (c : Dev nD) : (dats m 0 c).arrAt 5 cfg0.N = result m c :=
  (dats m 0 c).arrAt_eq_of_cover 5 (result m c) (flushed_eq m c) fun i =>
    ⟨tLast, (flush0_5 tLast).mpr rfl, by
      show i ∈ ((View.whole main_v33).slice (win0_5.rect tLast)).set
      rw [View.set_slice_whole, Rect.mem_set_unit]
      intro a
      have h0 : (i 0 : Nat) < 1024 := (i 0).isLt
      match a with
      | ⟨0, _⟩ =>
        show win0_5.index tLast 0 * win0_5.size 0 ≤ (i 0 : Nat) ∧ (i 0 : Nat) < win0_5.index tLast 0 * win0_5.size 0 + win0_5.xsize (grid0.coords tLast) 0
        rw [show win0_5.index tLast 0 * win0_5.size 0 = 0 from by decide +kernel, show win0_5.xsize (grid0.coords tLast) 0 = 1024 from by decide +kernel]
        omega⟩

/-! ## The final contents are the bucket sums of the gathered arrays -/

/-- Edge e's value is the specification's value over the gathered rows, and its word the gathered bucket word. -/
theorem valOf_eq (c : Dev nD) (e : Fin 8388608) :
    valOf m c e = EdgeDecay.edgeValue (startRows (m ((c : Thread nD τ).loc main_arg0)) (m ((c : Thread nD τ).loc main_arg1)))
      (endRows (m ((c : Thread nD τ).loc main_arg0)) (m ((c : Thread nD τ).loc main_arg1))) e := by
  unfold valOf EdgeDecay.edgeValue
  rw [show sxArr m c = _ from V_v19 m c, show syArr m c = _ from V_v21 m c, show exArr m c = _ from V_v23 m c,
    show eyArr m c = _ from V_v25 m c, colX_apply, colY_apply, colX_apply, colY_apply]

theorem wordOf_eq (c : Dev nD) (e : Fin 8388608) :
    wordOf m c e = graphIds (m ((c : Thread nD τ).loc main_arg2)) (m ((c : Thread nD τ).loc main_arg1)) (ix1 e) := by
  unfold wordOf
  rw [show gArr m c = _ from V_v32 m c]

theorem result_eq (c : Dev nD) :
    result m c = EdgeDecay.buckets (startRows (m ((c : Thread nD τ).loc main_arg0)) (m ((c : Thread nD τ).loc main_arg1)))
      (endRows (m ((c : Thread nD τ).loc main_arg0)) (m ((c : Thread nD τ).loc main_arg1)))
      (graphIds (m ((c : Thread nD τ).loc main_arg2)) (m ((c : Thread nD τ).loc main_arg1))) := by
  funext j
  obtain ⟨r, rfl⟩ : ∃ r : Fin 1024, j = ix1 r := ⟨j 0, eq_ix1 j⟩
  show EdgeDecay.runningTotal (valOf m c) (wordOf m c) r 1023 = _
  rw [EdgeDecay.runningTotal_last, EdgeDecay.buckets_apply]
  refine Finset.sum_congr rfl fun e _ => ?_
  rw [valOf_eq, wordOf_eq]

/-! ## The run -/

/-- After the region the program sums the result array from zero and divides by 1024. -/
theorem tail_eq (c : Dev nD) :
    Pipeline.afterTail₀ cfgs (dats m) 0 (V0 m) [hostOps1] c main_v35 = meanOf (result m c) := by
  unfold Pipeline.afterTail₀
  show StableHlo.after hostOps1 _ (Proc.devRef .tc main_v35) = _
  after_results
  rw [show Pipeline.withArrays (cfgs 0).spec c (V0 m c) (fun w => (dats m 0 c).arrAt w (cfgs 0).N) (Proc.devRef .tc main_v33) = result m c from
    (Pipeline.withArrays_arr spec0 launch0.win.arr_inj c _ _ 5).trans (final m c)]
  rfl

/-- The run, read: the program's result is the mean of the final contents, and the arguments end unchanged. -/
theorem run : θ_run defs (onTc (τ := τ) (main (F := Ideal))) ⟨m, fun _ => 0, ρ⟩ fun r => ∀ c : Dev nD,
      r.2.mem ((c.tc : Thread nD τ).loc main_v35) = meanOf (result m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c =>
    ⟨((h c).2 main_v35 (Pipeline.mem_restRefs_of main_v35 (by decide) (by decide))).trans (tail_eq m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c)⟩)
    (run_main m ρ)

end Cert.KernelIdeal.RegionValue

end
-- ==== Proof.LibSegmentSum.lean ====
/-
  A sum of rows grouped by a list of row numbers (jax.ops.segment_sum; jnp's `x.at[idx].add(u)` with one index per
  update row), read at an element.

  The scatter-add prints as `Host.scatterAdd d x idx upd` with the scatter indices an (n, 1) column. At the ideal values
  element (r, k) of the result is x(r, k) plus the sum of upd(e, k) over the update rows e whose index, read as a SIGNED
  integer and not clamped, is r: an update whose index is negative or past the last row contributes nothing.
  The one-axis form (updates a list of n values, the operand a list of N values) reads the same way.
-/
import Idealize.ShloMosaic.PureOps.Ideal
import Idealize.ShloMosaic.PureOps.Contract
import Idealize.ShloMosaic.Lib.ValueIdx

noncomputable section

namespace Idealize.ShloMosaic.SegmentSum

open Idealize.ShloMosaic Idealize.ShloMosaic.ValueIdx

/-- A list with exactly one entry has that entry at every position it can be read at. -/
private theorem getElem_eq_of_singleton {β : Type} {l : List β} {b : β} (h : l = [b]) {i : Nat} (hi : i < l.length) : l[i] = b := by
  subst h
  match i, hi with
  | 0, _ => rfl
  | i + 1, hi => exact absurd hi (by simp)

/-! ## Rows: where an update element lands

  With the operand's row axis both inserted and start-indexed, the updates' column axis their one window axis, and the
  index vector along the column of scatter indices, update element (e, k') starts at row idx(e), column 0, and its window
  coordinate is (0, k'): it lands at (idx(e), k') when idx(e), read signed, is a row of the operand, and nowhere
  otherwise. -/

section rowsAux
variable {N n C w : Nat} (d : ScatterDims ⟨2, ![N, C]⟩ ⟨2, ![n, 1]⟩ ⟨2, ![n, C]⟩)
    (idx : IVec ⟨2, ![n, 1]⟩ w) (e : Fin n) (k' : Fin C)

/-- The operand's axes that are not inserted: the column axis alone. -/
theorem sKept_rows (hiw : d.insertedWindowDims = [0]) : d.sKept = [(1 : Fin 2)] := by
  show Shape.kept _ d.insertedWindowDims = [(1 : Fin 2)]
  rw [hiw]; rfl

/-- The updates' scatter axes: the row axis alone. -/
theorem uScatter_rows (huw : d.updateWindowDims = [1]) : d.uScatter = [(0 : Fin 2)] := by
  show Shape.kept _ d.updateWindowDims = [(0 : Fin 2)]
  rw [huw]; rfl

/-- On the row axis the window of update element (e, k') starts at the e-th scatter index, read signed. -/
theorem start_row (huw : d.updateWindowDims = [1]) (hsd : d.scatterDimsToOperandDims = [0]) (hivd : d.indexVectorDim = 1) :
    d.start (ix2 e k') idx (0 : Fin 2) = (idx (ix2 e (0 : Fin 1))).toInt := by
  have hm : (0 : Fin 2) ∈ d.scatterDimsToOperandDims := by rw [hsd]; exact List.mem_singleton.mpr rfl
  unfold ScatterDims.start
  rw [dif_pos hm]
  refine congrArg (fun q => (idx q).toInt) ?_
  funext b
  match b with
  | ⟨0, _⟩ =>
    unfold ScatterDims.siIdx
    rw [dif_neg (by rw [hivd]; exact Nat.zero_ne_one)]
    unfold ScatterDims.siCoord
    apply Fin.ext
    show ((ix2 e k') (d.uScatter[_]'_)).val = e.val
    rw [getElem_eq_of_singleton (uScatter_rows d huw)]
  | ⟨1, _⟩ =>
    unfold ScatterDims.siIdx
    rw [dif_pos (by rw [hivd])]
    apply Fin.ext
    show List.idxOf (0 : Fin 2) d.scatterDimsToOperandDims = 0
    rw [hsd]; simp

/-- On the column axis the window starts at 0: no scatter index addresses it. -/
theorem start_col (hsd : d.scatterDimsToOperandDims = [0]) : d.start (ix2 e k') idx (1 : Fin 2) = 0 := by
  have hm : (1 : Fin 2) ∉ d.scatterDimsToOperandDims := by rw [hsd]; simp
  unfold ScatterDims.start
  rw [dif_neg hm]

/-- The row axis is inserted: its window coordinate is 0. -/
theorem window_row (hiw : d.insertedWindowDims = [0]) : d.window (ix2 e k') (0 : Fin 2) = 0 := by
  have hk : (0 : Fin 2) ∉ d.sKept := by rw [sKept_rows d hiw]; simp
  unfold ScatterDims.window
  rw [dif_neg hk]

/-- The column axis carries the updates' window axis: its window coordinate is the update's column. -/
theorem window_col (huw : d.updateWindowDims = [1]) (hiw : d.insertedWindowDims = [0]) : d.window (ix2 e k') (1 : Fin 2) = k'.val := by
  have hk : (1 : Fin 2) ∈ d.sKept := by rw [sKept_rows d hiw]; exact List.mem_singleton.mpr rfl
  unfold ScatterDims.window
  rw [dif_pos hk, getElem_eq_of_singleton huw]
  rfl

/-- Update element (e, k') lands at (r, k) exactly when the e-th scatter index, read signed, is r and k' = k: the bounds
    on both axes then hold because r and k are positions in the operand. -/
theorem resultIdx_rows_iff (huw : d.updateWindowDims = [1]) (hiw : d.insertedWindowDims = [0])
    (hsd : d.scatterDimsToOperandDims = [0]) (hivd : d.indexVectorDim = 1) (r : Fin N) (k : Fin C) :
    d.resultIdx? (ix2 e k') idx = some (ix2 r k) ↔ (idx (ix2 e (0 : Fin 1))).toInt = (r.val : ℤ) ∧ k' = k := by
  have h0 := start_row d idx e k' huw hsd hivd
  have h1 := start_col d idx e k' hsd
  have w0 := window_row d e k' hiw
  have w1 := window_col d e k' huw hiw
  unfold ScatterDims.resultIdx?
  split
  · rename_i h
    rw [Option.some.injEq]
    constructor
    · intro hf
      have a0 : (d.start (ix2 e k') idx (0 : Fin 2) + (d.window (ix2 e k') (0 : Fin 2) : ℤ)).toNat = r.val :=
        congrArg (fun f => (f (0 : Fin 2)).val) hf
      have a1 : (d.start (ix2 e k') idx (1 : Fin 2) + (d.window (ix2 e k') (1 : Fin 2) : ℤ)).toNat = k.val :=
        congrArg (fun f => (f (1 : Fin 2)).val) hf
      have b0 := (h (0 : Fin 2)).1
      rw [h0, w0] at a0 b0
      rw [h1, w1] at a1
      refine ⟨by omega, Fin.ext (by omega)⟩
    · rintro ⟨hr, rfl⟩
      funext a
      match a with
      | ⟨0, _⟩ =>
        apply Fin.ext
        show (d.start (ix2 e k') idx (0 : Fin 2) + (d.window (ix2 e k') (0 : Fin 2) : ℤ)).toNat = r.val
        rw [h0, w0, hr]; omega
      | ⟨1, _⟩ =>
        apply Fin.ext
        show (d.start (ix2 e k') idx (1 : Fin 2) + (d.window (ix2 e k') (1 : Fin 2) : ℤ)).toNat = k'.val
        rw [h1, w1]; omega
  · rename_i h
    constructor
    · intro hf; exact absurd hf (by simp)
    · rintro ⟨hr, rfl⟩
      refine absurd (fun a => ?_) h
      match a with
      | ⟨0, _⟩ =>
        show 0 ≤ d.start (ix2 e k') idx (0 : Fin 2) + (d.window (ix2 e k') (0 : Fin 2) : ℤ) ∧
          d.start (ix2 e k') idx (0 : Fin 2) + (d.window (ix2 e k') (0 : Fin 2) : ℤ) < ((N : ℕ) : ℤ)
        rw [h0, w0, hr]; have := r.isLt; omega
      | ⟨1, _⟩ =>
        show 0 ≤ d.start (ix2 e k') idx (1 : Fin 2) + (d.window (ix2 e k') (1 : Fin 2) : ℤ) ∧
          d.start (ix2 e k') idx (1 : Fin 2) + (d.window (ix2 e k') (1 : Fin 2) : ℤ) < ((C : ℕ) : ℤ)
        rw [h1, w1]; have := k'.isLt; omega

end rowsAux

section rows
variable {N n C w : Nat} (d : ScatterDims ⟨2, ![N, C]⟩ ⟨2, ![n, 1]⟩ ⟨2, ![n, C]⟩)
    (huw : d.updateWindowDims = [1]) (hiw : d.insertedWindowDims = [0]) (hsd : d.scatterDimsToOperandDims = [0])
    (hivd : d.indexVectorDim = 1) (idx : IVec ⟨2, ![n, 1]⟩ w)
include huw hiw hsd hivd

/-- Element (r, k) of a scatter-add of rows: the operand's element plus the update rows whose index is r, at column k. -/
theorem scatterAdd_rows {φ : FTy} (x : FVec Ideal ⟨2, ![N, C]⟩ φ) (upd : FVec Ideal ⟨2, ![n, C]⟩ φ) (r : Fin N) (k : Fin C) :
    Host.scatterAdd d x idx upd (ix2 r k)
      = x (ix2 r k) + ∑ e : Fin n, if (idx (ix2 e (0 : Fin 1))).toInt = (r.val : ℤ) then upd (ix2 e k) else 0 := by
  have hlands := fun (e : Fin n) (b : Fin C) => resultIdx_rows_iff d idx e b huw hiw hsd hivd r k
  unfold Host.scatterAdd
  rw [Ideal.hostScatterAdd_def]
  unfold Ideal.hostScatterAdd
  congr 1
  rw [Finset.sum_filter, sum_idx2]
  refine Finset.sum_congr rfl fun e _ => ?_
  by_cases hr : (idx (ix2 e (0 : Fin 1))).toInt = (r.val : ℤ)
  · rw [if_pos hr, Finset.sum_eq_single k]
    · rw [if_pos ((hlands e k).2 ⟨hr, rfl⟩)]
    · intro b _ hb
      rw [if_neg fun h => hb ((hlands e b).1 h).2]
    · intro hk; exact absurd (Finset.mem_univ k) hk
  · rw [if_neg hr]
    refine Finset.sum_eq_zero fun b _ => ?_
    rw [if_neg fun h => hr ((hlands e b).1 h).1]

end rows

/-! ## Values: where an update lands

  The one-axis form: the operand's only axis is inserted and start-indexed and the updates have no window axis, so
  update e starts at position idx(e) with window coordinate 0, and lands there when idx(e), read signed, is a position of
  the operand. -/

/-- A sum over the positions of a list of n values is the sum over their coordinates. -/
private theorem sum_idx1 {M : Type*} [AddCommMonoid M] {n : Nat} (f : (⟨1, ![n]⟩ : Shape).Idx → M) :
    ∑ i, f i = ∑ a : Fin n, f (ix1 a) :=
  Fintype.sum_equiv ⟨fun i => i 0, ix1, fun i => (eq_ix1 i).symm, fun _ => rfl⟩ f (fun a => f (ix1 a))
    fun i => congrArg f (eq_ix1 i)

section valsAux
variable {N n w : Nat} (d : ScatterDims ⟨1, ![N]⟩ ⟨2, ![n, 1]⟩ ⟨1, ![n]⟩) (idx : IVec ⟨2, ![n, 1]⟩ w) (e : Fin n)

/-- The operand's only axis is inserted: none is kept. -/
theorem sKept_vals (hiw : d.insertedWindowDims = [0]) : d.sKept = [] := by
  show Shape.kept _ d.insertedWindowDims = []
  rw [hiw]; rfl

/-- The updates' only axis is a scatter axis. -/
theorem uScatter_vals (huw : d.updateWindowDims = []) : d.uScatter = [(0 : Fin 1)] := by
  show Shape.kept _ d.updateWindowDims = [(0 : Fin 1)]
  rw [huw]; rfl

/-- The window of update e starts at the e-th scatter index, read signed. -/
theorem start_val (huw : d.updateWindowDims = []) (hsd : d.scatterDimsToOperandDims = [0]) (hivd : d.indexVectorDim = 1) :
    d.start (ix1 e) idx (0 : Fin 1) = (idx (ix2 e (0 : Fin 1))).toInt := by
  have hm : (0 : Fin 1) ∈ d.scatterDimsToOperandDims := by rw [hsd]; exact List.mem_singleton.mpr rfl
  unfold ScatterDims.start
  rw [dif_pos hm]
  refine congrArg (fun q => (idx q).toInt) ?_
  funext b
  match b with
  | ⟨0, _⟩ =>
    unfold ScatterDims.siIdx
    rw [dif_neg (by rw [hivd]; exact Nat.zero_ne_one)]
    unfold ScatterDims.siCoord
    apply Fin.ext
    show ((ix1 e) (d.uScatter[_]'_)).val = e.val
    rw [getElem_eq_of_singleton (uScatter_vals d huw)]
  | ⟨1, _⟩ =>
    unfold ScatterDims.siIdx
    rw [dif_pos (by rw [hivd])]
    apply Fin.ext
    show List.idxOf (0 : Fin 1) d.scatterDimsToOperandDims = 0
    rw [hsd]; simp

/-- The operand's axis is inserted: the window coordinate is 0. -/
theorem window_val (hiw : d.insertedWindowDims = [0]) : d.window (ix1 e) (0 : Fin 1) = 0 := by
  have hk : (0 : Fin 1) ∉ d.sKept := by rw [sKept_vals d hiw]; exact List.not_mem_nil
  unfold ScatterDims.window
  rw [dif_neg hk]

/-- Update e lands at position r exactly when the e-th scatter index, read signed, is r. -/
theorem resultIdx_vals_iff (huw : d.updateWindowDims = []) (hiw : d.insertedWindowDims = [0])
    (hsd : d.scatterDimsToOperandDims = [0]) (hivd : d.indexVectorDim = 1) (r : Fin N) :
    d.resultIdx? (ix1 e) idx = some (ix1 r) ↔ (idx (ix2 e (0 : Fin 1))).toInt = (r.val : ℤ) := by
  have h0 := start_val d idx e huw hsd hivd
  have w0 := window_val d e hiw
  unfold ScatterDims.resultIdx?
  split
  · rename_i h
    rw [Option.some.injEq]
    constructor
    · intro hf
      have a0 : (d.start (ix1 e) idx (0 : Fin 1) + (d.window (ix1 e) (0 : Fin 1) : ℤ)).toNat = r.val :=
        congrArg (fun f => (f (0 : Fin 1)).val) hf
      have b0 := (h (0 : Fin 1)).1
      rw [h0, w0] at a0 b0
      omega
    · intro hr
      funext a
      match a with
      | ⟨0, _⟩ =>
        apply Fin.ext
        show (d.start (ix1 e) idx (0 : Fin 1) + (d.window (ix1 e) (0 : Fin 1) : ℤ)).toNat = r.val
        rw [h0, w0, hr]; omega
  · rename_i h
    constructor
    · intro hf; exact absurd hf (by simp)
    · intro hr
      refine absurd (fun a => ?_) h
      match a with
      | ⟨0, _⟩ =>
        show 0 ≤ d.start (ix1 e) idx (0 : Fin 1) + (d.window (ix1 e) (0 : Fin 1) : ℤ) ∧
          d.start (ix1 e) idx (0 : Fin 1) + (d.window (ix1 e) (0 : Fin 1) : ℤ) < ((N : ℕ) : ℤ)
        rw [h0, w0, hr]; have := r.isLt; omega

end valsAux

section vals
variable {N n w : Nat} (d : ScatterDims ⟨1, ![N]⟩ ⟨2, ![n, 1]⟩ ⟨1, ![n]⟩)
    (huw : d.updateWindowDims = []) (hiw : d.insertedWindowDims = [0]) (hsd : d.scatterDimsToOperandDims = [0])
    (hivd : d.indexVectorDim = 1) (idx : IVec ⟨2, ![n, 1]⟩ w)
include huw hiw hsd hivd

/-- Entry r of a scatter-add of values: the operand's entry plus the updates whose index is r. -/
theorem scatterAdd_vals {φ : FTy} (x : FVec Ideal ⟨1, ![N]⟩ φ) (upd : FVec Ideal ⟨1, ![n]⟩ φ) (r : Fin N) :
    Host.scatterAdd d x idx upd (ix1 r)
      = x (ix1 r) + ∑ e : Fin n, if (idx (ix2 e (0 : Fin 1))).toInt = (r.val : ℤ) then upd (ix1 e) else 0 := by
  have hlands := fun (e : Fin n) => resultIdx_vals_iff d idx e huw hiw hsd hivd r
  unfold Host.scatterAdd
  rw [Ideal.hostScatterAdd_def]
  unfold Ideal.hostScatterAdd
  congr 1
  rw [Finset.sum_filter, sum_idx1]
  exact Finset.sum_congr rfl fun e _ => if_congr (hlands e) rfl rfl

end vals

end Idealize.ShloMosaic.SegmentSum

end
-- ==== Proof.RefSegment.lean ====
/-
  The reference computation's result as the mean of the bucket sums.

  The reference gathers, for every edge, the rows of the point table at its two endpoints (an endpoint number below
  zero is first moved up by the table's length), takes the difference d of the two rows, forms  exp (-1 · √(0 + d₀² + d₁²)),
  gathers the bucket number of the edge's first endpoint, adds every edge's value into the entry of a list of 1024
  zeros that its bucket number names, and divides the sum of that list by 1024.

  Over any two arrays of endpoint rows and any array of bucket numbers, the list of 1024 entries is the bucket sums of
  the shared specification: entry r is  0 + ∑ₑ [bucket e, read signed, is r] · value e,  and value e is the
  specification's decay of the edge's endpoint coordinates because a sum over the two coordinates starting from zero is
  d₀² + d₁².  The reference's result is this statement at the three gathered arrays.
-/
import proofs.«430588_j32220844654988_1_alg».proof.Proof.Gen.ReferenceIdeal.Run
import proofs.«430588_j32220844654988_1_alg».proof.Proof.Gen.ReferenceIdeal.Read
import proofs.«430588_j32220844654988_1_alg».proof.Proof.Spec
import proofs.«430588_j32220844654988_1_alg».proof.Proof.LibSegmentSum
import proofs.«430588_j32220844654988_1_alg».proof.Proof.LibRows
import Idealize.ShloMosaic.Lib.ValueIdx
import Idealize.ShloMosaic.Lib.IdealHost
import Idealize.ShloMosaic.Lib.Pipeline.Value
import Idealize.ShloMosaic.PureOps.Ideal.Laws
import Mathlib.Algebra.BigOperators.Fin

noncomputable section

namespace Cert.ReferenceIdeal.RefValue

open Cert.ReferenceIdeal Cert.ReferenceIdeal.Gen Idealize.ShloMosaic Idealize.ShloMosaic.TcCoe Idealize.SL.Sem Idealize.ShloMosaic.StableHlo
open Idealize.ShloMosaic.ValueIdx

/-! ## The three gathered arrays and the mean -/

/-- The rows of the point table at the edges' first endpoints: endpoint numbers are row 0 of the edge table, a negative
    one moved up by 131072. -/
def startRows (x0 : FVec Ideal S131072x2 .f32) (x1 : IVec S2x8388608 32) : FVec Ideal S8388608x2 .f32 :=
  Host.gather gather_S131072x2_S8388608x1_S8388608x2_1_0_n_n_0_1_12 x0 (broadcastInDim S8388608x1 ![0] bcast_S8388608_S8388608x1_0 (select (cmpi .slt (shapeCast _ (extractStridedSlice S1x8388608 ![0, 0] x1 slices_S2x8388608_S1x8388608_0_0) shapeCasts_S1x8388608_S8388608) (broadcastInDim S8388608 ![] bcast_S_S8388608 (constantI S_ 32 0#32))) (addi (shapeCast _ (extractStridedSlice S1x8388608 ![0, 0] x1 slices_S2x8388608_S1x8388608_0_0) shapeCasts_S1x8388608_S8388608) (broadcastInDim S8388608 ![] bcast_S_S8388608 (constantI S_ 32 131072#32))) (shapeCast _ (extractStridedSlice S1x8388608 ![0, 0] x1 slices_S2x8388608_S1x8388608_0_0) shapeCasts_S1x8388608_S8388608)))

/-- The rows of the point table at the edges' second endpoints: row 1 of the edge table, wrapped the same way. -/
def endRows (x0 : FVec Ideal S131072x2 .f32) (x1 : IVec S2x8388608 32) : FVec Ideal S8388608x2 .f32 :=
  Host.gather gather_S131072x2_S8388608x1_S8388608x2_1_0_n_n_0_1_12 x0 (broadcastInDim S8388608x1 ![0] bcast_S8388608_S8388608x1_0 (select (cmpi .slt (shapeCast _ (extractStridedSlice S1x8388608 ![1, 0] x1 slices_S2x8388608_S1x8388608_1_0) shapeCasts_S1x8388608_S8388608) (broadcastInDim S8388608 ![] bcast_S_S8388608 (constantI S_ 32 0#32))) (addi (shapeCast _ (extractStridedSlice S1x8388608 ![1, 0] x1 slices_S2x8388608_S1x8388608_1_0) shapeCasts_S1x8388608_S8388608) (broadcastInDim S8388608 ![] bcast_S_S8388608 (constantI S_ 32 131072#32))) (shapeCast _ (extractStridedSlice S1x8388608 ![1, 0] x1 slices_S2x8388608_S1x8388608_1_0) shapeCasts_S1x8388608_S8388608)))

/-- The bucket number of each edge: the entry of the bucket table at the edge's first endpoint. -/
def graphIds (x2 : IVec S131072 32) (x1 : IVec S2x8388608 32) : IVec S8388608 32 :=
  Host.gather gather_S131072_S8388608x1_S8388608_n_0_n_n_0_1_1 x2 (broadcastInDim S8388608x1 ![0] bcast_S8388608_S8388608x1_0 (select (cmpi .slt (shapeCast _ (extractStridedSlice S1x8388608 ![0, 0] x1 slices_S2x8388608_S1x8388608_0_0) shapeCasts_S1x8388608_S8388608) (broadcastInDim S8388608 ![] bcast_S_S8388608 (constantI S_ 32 0#32))) (addi (shapeCast _ (extractStridedSlice S1x8388608 ![0, 0] x1 slices_S2x8388608_S1x8388608_0_0) shapeCasts_S1x8388608_S8388608) (broadcastInDim S8388608 ![] bcast_S_S8388608 (constantI S_ 32 131072#32))) (shapeCast _ (extractStridedSlice S1x8388608 ![0, 0] x1 slices_S2x8388608_S1x8388608_0_0) shapeCasts_S1x8388608_S8388608)))

/-- The sum of 1024 entries from zero, divided by 1024. -/
def meanOf (x : FVec Ideal S1024 .f32) : FVec Ideal S_ .f32 :=
  Host.divf (Host.reduceAdd x (constant (F := Ideal) S_ .f32 0x00000000#32) reducesTo_S1024_S_d0 h_S_) (constant (F := Ideal) S_ .f32 0x44800000#32)

/-! ## The scatter-add, entry by entry -/

/-- Every entry of the list the values are added into is zero. -/
theorem zeros_apply (r : Fin 1024) :
    broadcastInDim S1024 ![] bcast_S_S1024 (constant (F := Ideal) S_ .f32 0x00000000#32) (ix1 r) = 0 :=
  (broadcastInDim_scalar_apply bcast_S_S1024 _ (ix1 r)).trans Ideal.ofBits_zero_f32

/-- The column of bucket numbers at edge e is the bucket number of e. -/
theorem column_apply (G : IVec S8388608 32) (e : Fin 8388608) :
    broadcastInDim S8388608x1 ![0] bcast_S8388608_S8388608x1_0 G (ix2 e (0 : Fin 1)) = G (ix1 e) :=
  broadcastInDim_apply _ bcast_S8388608_S8388608x1_0 G (ix2 e (0 : Fin 1)) (ix1 e) (fun a => match a with
    | ⟨0, _⟩ => by show e.val = if (8388608 : Nat) = 1 then 0 else e.val; rw [if_neg (by decide)])

/-- The value added for edge e is the specification's value of e: the sum over the two coordinates, from zero, of the
    squared differences is d₀² + d₁². -/
theorem update_apply (A B : FVec Ideal S8388608x2 .f32) (e : Fin 8388608) :
    Host.exp (mulf (broadcastInDim S8388608 ![] bcast_S_S8388608 (constant (F := Ideal) S_ .f32 0xBF800000#32))
        (Host.sqrt (Host.reduceAdd (mulf (subf B A) (subf B A)) (constant (F := Ideal) S_ .f32 0x00000000#32) reducesTo_S8388608x2_S8388608_d1 h_S_))) (ix1 e)
      = EdgeDecay.edgeValue A B e := by
  rw [Rows.hsum_eq _ reducesTo_S8388608x2_S8388608_d1 (by decide) h_S_]
  show Ideal.exp (Ideal.ofBits .f32 0xBF800000#32
      * Ideal.sqrt (∑ k : Fin 2, (B (ix2 e k) - A (ix2 e k)) * (B (ix2 e k) - A (ix2 e k)))) = _
  rw [Fin.sum_univ_two]
  rfl

/-- The list after the scatter-add is the bucket sums: entry r is zero plus the values of the edges whose bucket number,
    read signed, is r. -/
theorem seg_eq (A B : FVec Ideal S8388608x2 .f32) (G : IVec S8388608 32) :
    Host.scatterAdd scatter_S1024_S8388608x1_S8388608_n_0_0_1
        (broadcastInDim S1024 ![] bcast_S_S1024 (constant (F := Ideal) S_ .f32 0x00000000#32))
        (broadcastInDim S8388608x1 ![0] bcast_S8388608_S8388608x1_0 G)
        (Host.exp (mulf (broadcastInDim S8388608 ![] bcast_S_S8388608 (constant (F := Ideal) S_ .f32 0xBF800000#32))
          (Host.sqrt (Host.reduceAdd (mulf (subf B A) (subf B A)) (constant (F := Ideal) S_ .f32 0x00000000#32) reducesTo_S8388608x2_S8388608_d1 h_S_))))
      = EdgeDecay.buckets A B G := by
  refine Rows.ext_ix1 fun r => ?_
  refine (SegmentSum.scatterAdd_vals scatter_S1024_S8388608x1_S8388608_n_0_0_1 rfl rfl rfl rfl _ _ _ r).trans ?_
  rw [zeros_apply, zero_add, EdgeDecay.buckets_apply]
  refine Finset.sum_congr rfl fun e _ => ?_
  rw [column_apply, update_apply]

/-! ## The reference's result -/

/-- The reference's result is the mean of the bucket sums of the three gathered arrays. -/
theorem result_eq (m : (ℓ : Loc nD τ sig) → Buf (Elt Ideal) ℓ) (c : Dev nD) :
    Cert.ReferenceIdeal.Value.res_out0 (F := Ideal) m c
      = meanOf (EdgeDecay.buckets
          (startRows (m ((c.tc : Thread nD τ).loc main_arg0)) (m ((c.tc : Thread nD τ).loc main_arg1)))
          (endRows (m ((c.tc : Thread nD τ).loc main_arg0)) (m ((c.tc : Thread nD τ).loc main_arg1)))
          (graphIds (m ((c.tc : Thread nD τ).loc main_arg2)) (m ((c.tc : Thread nD τ).loc main_arg1)))) := by
  rw [← seg_eq]
  unfold Cert.ReferenceIdeal.Value.res_out0 Cert.ReferenceIdeal.Value.res_main_v36 meanOf startRows endRows graphIds
  rfl

end Cert.ReferenceIdeal.RefValue

end
-- ==== Proof.lean ====
/-
  The certificate's claims for the edge-decay bucket mean.

  Both programs gather, for every one of the 8388608 edges, the rows of its two endpoints from the table of positions
  and the bucket word of its first endpoint, form the edge's value  exp (-1 · √((ex - sx)² + (ey - sy)²)),  collect
  the values by bucket into 1024 entries, and return the sum of the entries divided by 1024.

  The kernel collects by a one-hot product: it walks the edges in 1024 blocks of 8192, multiplies each block's row of
  values into the block's 8192 × 1024 matrix of indicators (bucket word = lane), and adds the products up in a scratch
  row that the last block copies out.  The reference collects by a scatter-add over all edges at once.  At the exact
  values a change of float format is the identity and the product into a zero accumulator is the plain sum, so entry j
  of the kernel's row is the sum over the blocks of the sum inside each block of  value · indicator,  which is the
  conditional sum over all edges that the scatter-add computes: multiplying by an indicator selects the term, and a sum
  over 1024 · 8192 edges is the sum over the blocks of the sums inside them.  An edge whose bucket word is not the word
  of any of the 1024 lanes contributes to neither.  No step needs the inputs to be finite.

  The three frame claims: the two kernel programs' frames are the generated frame runs; the reference's frame is its
  run with the result dropped.  The idealization rewrote nothing, so its claim is trivial.
-/
import proofs.«430588_j32220844654988_1_alg».proof.Defs
import proofs.«430588_j32220844654988_1_alg».proof.Proof.Gen.Kernel
import proofs.«430588_j32220844654988_1_alg».proof.Proof.Gen.Kernel.Skeleton
import proofs.«430588_j32220844654988_1_alg».proof.Proof.Gen.Kernel.Launch
import proofs.«430588_j32220844654988_1_alg».proof.Proof.Gen.Kernel.Points
import proofs.«430588_j32220844654988_1_alg».proof.Proof.Gen.Kernel.Frame
import proofs.«430588_j32220844654988_1_alg».proof.Proof.Gen.KernelIdeal
import proofs.«430588_j32220844654988_1_alg».proof.Proof.Gen.KernelIdeal.Skeleton
import proofs.«430588_j32220844654988_1_alg».proof.Proof.Gen.KernelIdeal.Launch
import proofs.«430588_j32220844654988_1_alg».proof.Proof.Gen.KernelIdeal.Points
import proofs.«430588_j32220844654988_1_alg».proof.Proof.Gen.KernelIdeal.Frame
import proofs.«430588_j32220844654988_1_alg».proof.Proof.Gen.ReferenceIdeal
import proofs.«430588_j32220844654988_1_alg».proof.Proof.Gen.ReferenceIdeal.Run
import proofs.«430588_j32220844654988_1_alg».proof.Proof.Gen.Pre_finite_inputs
import proofs.«430588_j32220844654988_1_alg».proof.Proof.KernelResult
import proofs.«430588_j32220844654988_1_alg».proof.Proof.RefSegment
import Idealize.ShloMosaic.Adequacy
import Idealize.ShloMosaic.Init

noncomputable section

namespace Cert.Proof

open Idealize.ShloMosaic Idealize.SL.Sem Cert.Kernel

/-- The word-level kernel terminates without a fault and leaves its arguments unchanged. -/
theorem frame_kernel : Cert.frame_Kernel := fun m ρ _ => Cert.Kernel.Gen.frame m ρ

/-- So does the kernel read at the exact values. -/
theorem frame_kernelIdeal : Cert.frame_KernelIdeal := fun m ρ _ => Cert.KernelIdeal.Gen.frame m ρ

/-- So does the reference: its run, with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The idealization changed no operation. -/
theorem preserves : Cert.preserves_Kernel_KernelIdeal := trivial

/-- Both programs end with the mean of the same 1024 bucket sums: the kernel's run leaves the running totals after the
    last block, the reference's run the scatter-add's entries, and both are the bucket sums of the three gathered
    arrays, which are the same terms of arguments that agree. -/
theorem algebraic : Cert.algebraic_KernelIdeal_ReferenceIdeal := by
  intro m ρ m' ρ' _ hagree
  refine ⟨fun c => Cert.KernelIdeal.RegionValue.meanOf (Cert.KernelIdeal.RegionValue.result m c),
    Cert.KernelIdeal.RegionValue.run m ρ, ?_⟩
  refine (θ_run Cert.ReferenceIdeal.defs _ _).mono (fun _ h c => ⟨(h c).1.trans ?_, (h c).2⟩)
    (Cert.ReferenceIdeal.Value.run (F := Ideal) m' ρ')
  show Cert.ReferenceIdeal.Value.res_main_v36 m' c = Cert.KernelIdeal.RegionValue.meanOf (Cert.KernelIdeal.RegionValue.result m c)
  rw [Cert.KernelIdeal.RegionValue.result_eq m c]
  refine (Cert.ReferenceIdeal.RefValue.result_eq m' c).trans ?_
  rw [(hagree c).1, (hagree c).2.1, (hagree c).2.2]
  rfl

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
